-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x32 : Shape := ⟨2, ![500000, 32]⟩
abbrev S200000x16 : Shape := ⟨2, ![200000, 16]⟩
abbrev S2000000x8 : Shape := ⟨2, ![2000000, 8]⟩
abbrev S16x8 : Shape := ⟨2, ![16, 8]⟩
abbrev S16 : Shape := ⟨1, ![16]⟩
abbrev S32x8 : Shape := ⟨2, ![32, 8]⟩
abbrev S32 : Shape := ⟨1, ![32]⟩
abbrev S1x32 : Shape := ⟨2, ![1, 32]⟩
abbrev S1 : Shape := ⟨1, ![1]⟩
abbrev S2000000 : Shape := ⟨1, ![2000000]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S200000x16 : S_.BroadcastsInDim S200000x16 (![] : Fin 0 → Fin S200000x16.rank)
  reducesTo_S200000x16_S_d0_1 : S200000x16.ReducesTo [0, 1] S_
  bcast_S_S2000000x8 : S_.BroadcastsInDim S2000000x8 (![] : Fin 0 → Fin S2000000x8.rank)
  reducesTo_S2000000x8_S_d0_1 : S2000000x8.ReducesTo [0, 1] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S32 .f32) (main_arg8 : FVec F S1x32 .f32) (main_arg9 : FVec F S1 .f32) (main_arg10 : FVec F S1x32 .f32) (main_arg11 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1x32 .f32 := Host.absf main_arg10
  let main_cst_18 : FVec F S_ .f32 := constant S_ .f32 0x7F800000#32
  let main_v50 : FVec F S1x32 .f32 := broadcastInDim S1x32 ![] bcast_S_S1x32 main_cst_18
  fn_part3 (F := F) main_arg11 main_v48 main_v49 main_v50

def fn_part1 {F : FTy → Type} [FloatOps F] (main_arg4 : FVec F S16x8 .f32) (main_arg5 : FVec F S16 .f32) (main_arg6 : FVec F S32x8 .f32) (main_arg7 : FVec F S32 .f32) (main_arg8 : FVec F S1x32 .f32) (main_arg9 : FVec F S1 .f32) (main_arg10 : FVec F S1x32 .f32) (main_arg11 : FVec F S1 .f32) (main_v13 : IVec S_ 1) (main_v16 : IVec S2000000x8 1) : IVec S_ 1 :=
  let main_c_5 : IVec S_ 1 := constantI S_ 1 1#1
  let main_v17 : IVec S_ 1 := (fun x v => Host.reduce IntOp.andi x v reducesTo_S2000000x8_S_d0_1 h_S_) main_v16 main_c_5
  let main_v18 : IVec S_ 1 := andi main_v13 main_v17
  let main_v19 : FVec F S16x8 .f32 := Host.absf main_arg4
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x8 .f32 := Host.absf main_arg6
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S500000x32 .f32) (main_arg1 : FVec F S200000x16 .f32) (main_arg2 : FVec F S2000000x8 .f32) (main_arg3 : FVec F S2000000x8 .f32) (main_arg4 : FVec F S16x8 .f32) (main_arg5 : FVec F S16 .f32) (main_arg6 : FVec F S32x8 .f32) (main_arg7 : FVec F S32 .f32) (main_arg8 : FVec F S1x32 .f32) (main_arg9 : FVec F S1 .f32) (main_arg10 : FVec F S1x32 .f32) (main_arg11 : FVec F S1 .f32) (main_arg12 : IVec S2000000 32) (main_arg13 : IVec S2000000 32) (main_arg14 : IVec S2000000 32) (main_arg15 : IVec S2000000 32) : IVec S_ 1 :=
  let main_v0 : FVec F S500000x32 .f32 := Host.absf main_arg0
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S200000x16 .f32 := Host.absf main_arg1
  let main_cst_0 : FVec F S_ .f32 := constant S_ .f32 0x7F800000#32
  let main_v5 : FVec F S200000x16 .f32 := broadcastInDim S200000x16 ![] bcast_S_S200000x16 main_cst_0
  let main_v6 : IVec S200000x16 1 := cmpf .olt main_v4 main_v5
  let main_c_1 : IVec S_ 1 := constantI S_ 1 1#1
  let main_v7 : IVec S_ 1 := (fun x v => Host.reduce IntOp.andi x v reducesTo_S200000x16_S_d0_1 h_S_) main_v6 main_c_1
  let main_v8 : IVec S_ 1 := andi main_v3 main_v7
  let main_v9 : FVec F S2000000x8 .f32 := Host.absf main_arg2
  let main_cst_2 : FVec F S_ .f32 := constant S_ .f32 0x7F800000#32
  let main_v10 : FVec F S2000000x8 .f32 := broadcastInDim S2000000x8 ![] bcast_S_S2000000x8 main_cst_2
  let main_v11 : IVec S2000000x8 1 := cmpf .olt main_v9 main_v10
  let main_c_3 : IVec S_ 1 := constantI S_ 1 1#1
  let main_v12 : IVec S_ 1 := (fun x v => Host.reduce IntOp.andi x v reducesTo_S2000000x8_S_d0_1 h_S_) main_v11 main_c_3
  let main_v13 : IVec S_ 1 := andi main_v8 main_v12
  let main_v14 : FVec F S2000000x8 .f32 := Host.absf main_arg3
  let main_cst_4 : FVec F S_ .f32 := constant S_ .f32 0x7F800000#32
  let main_v15 : FVec F S2000000x8 .f32 := broadcastInDim S2000000x8 ![] bcast_S_S2000000x8 main_cst_4
  let main_v16 : IVec S2000000x8 1 := cmpf .olt main_v14 main_v15
  fn_part1 (F := F) main_arg4 main_arg5 main_arg6 main_arg7 main_arg8 main_arg9 main_arg10 main_arg11 main_v13 main_v16
-- ==== Kernel.lean ====
abbrev S500000x32 : Shape := ⟨2, ![500000, 32]⟩
abbrev S200000x16 : Shape := ⟨2, ![200000, 16]⟩
abbrev S2000000x8 : Shape := ⟨2, ![2000000, 8]⟩
abbrev S16x8 : Shape := ⟨2, ![16, 8]⟩
abbrev S16 : Shape := ⟨1, ![16]⟩
abbrev S32x8 : Shape := ⟨2, ![32, 8]⟩
abbrev S32 : Shape := ⟨1, ![32]⟩
abbrev S1x32 : Shape := ⟨2, ![1, 32]⟩
abbrev S1 : Shape := ⟨1, ![1]⟩
abbrev S2000000 : Shape := ⟨1, ![2000000]⟩
abbrev S_ : Shape := ⟨0, ![]⟩
abbrev S2000000x1 : Shape := ⟨2, ![2000000, 1]⟩
abbrev S2000000x16 : Shape := ⟨2, ![2000000, 16]⟩
abbrev S2000000x32 : Shape := ⟨2, ![2000000, 32]⟩
abbrev S8x16 : Shape := ⟨2, ![8, 16]⟩
abbrev S1x16 : Shape := ⟨2, ![1, 16]⟩
abbrev S5000x8 : Shape := ⟨2, ![5000, 8]⟩
abbrev S5000x16 : Shape := ⟨2, ![5000, 16]⟩
abbrev S5000x1 : Shape := ⟨2, ![5000, 1]⟩
abbrev S5000 : Shape := ⟨1, ![5000]⟩
abbrev S8x32 : Shape := ⟨2, ![8, 32]⟩
abbrev S5000x32 : Shape := ⟨2, ![5000, 32]⟩
abbrev S500000x1 : Shape := ⟨2, ![500000, 1]⟩
abbrev S1x1 : Shape := ⟨2, ![1, 1]⟩

abbrev nBuf : Space → Nat
  | .hbm => 51
  | .vmem => 28
  | .smem => 0
  | _ => 0

abbrev bufTy : (tb : Table) → Fin (tcTables nBuf tb) → BufTy
  | .hbm, ⟨0, _⟩ => ⟨S500000x32, .f32⟩
  | .hbm, ⟨1, _⟩ => ⟨S200000x16, .f32⟩
  | .hbm, ⟨2, _⟩ => ⟨S2000000x8, .f32⟩
  | .hbm, ⟨3, _⟩ => ⟨S2000000x8, .f32⟩
  | .hbm, ⟨4, _⟩ => ⟨S16x8, .f32⟩
  | .hbm, ⟨5, _⟩ => ⟨S16, .f32⟩
  | .hbm, ⟨6, _⟩ => ⟨S32x8, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1x32, .f32⟩
  | .hbm, ⟨11, _⟩ => ⟨S1, .f32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x16, .f32⟩
  | .hbm, ⟨25, _⟩ => ⟨S_, .i32⟩
  | .hbm, ⟨26, _⟩ => ⟨S2000000, .i32⟩
  | .hbm, ⟨27, _⟩ => ⟨S2000000, .i1⟩
  | .hbm, ⟨28, _⟩ => ⟨S_, .i32⟩
  | .hbm, ⟨29, _⟩ => ⟨S2000000, .i32⟩
  | .hbm, ⟨30, _⟩ => ⟨S2000000, .i32⟩
  | .hbm, ⟨31, _⟩ => ⟨S2000000, .i32⟩
  | .hbm, ⟨32, _⟩ => ⟨S2000000x1, .i32⟩
  | .hbm, ⟨33, _⟩ => ⟨S2000000x32, .f32⟩
  | .hbm, ⟨34, _⟩ => ⟨S8x16, .f32⟩
  | .hbm, ⟨35, _⟩ => ⟨S1x16, .f32⟩
  | .hbm, ⟨36, _⟩ => ⟨S2000000x1, .f32⟩
  | .hbm, ⟨37, _⟩ => ⟨S8x32, .f32⟩
  | .hbm, ⟨38, _⟩ => ⟨S1x32, .f32⟩
  | .hbm, ⟨39, _⟩ => ⟨S2000000x1, .f32⟩
  | .hbm, ⟨40, _⟩ => ⟨S_, .f32⟩
  | .hbm, ⟨41, _⟩ => ⟨S500000x1, .f32⟩
  | .hbm, ⟨42, _⟩ => ⟨S2000000x1, .i32⟩
  | .hbm, ⟨43, _⟩ => ⟨S500000x1, .f32⟩
  | .hbm, ⟨44, _⟩ => ⟨S_, .f32⟩
  | .hbm, ⟨45, _⟩ => ⟨S500000x1, .f32⟩
  | .hbm, ⟨46, _⟩ => ⟨S2000000x1, .i32⟩
  | .hbm, ⟨47, _⟩ => ⟨S500000x1, .f32⟩
  | .hbm, ⟨48, _⟩ => ⟨S1x1, .f32⟩
  | .hbm, ⟨49, _⟩ => ⟨S1x1, .f32⟩
  | .hbm, ⟨50, _⟩ => ⟨S500000x1, .f32⟩
  | .local _ .vmem, ⟨0, _⟩ => ⟨S5000x8, .f32⟩
  | .local _ .vmem, ⟨1, _⟩ => ⟨S5000x8, .f32⟩
  | .local _ .vmem, ⟨2, _⟩ => ⟨S5000x16, .f32⟩
  | .local _ .vmem, ⟨3, _⟩ => ⟨S5000x16, .f32⟩
  | .local _ .vmem, ⟨4, _⟩ => ⟨S8x16, .f32⟩
  | .local _ .vmem, ⟨5, _⟩ => ⟨S1x16, .f32⟩
  | .local _ .vmem, ⟨6, _⟩ => ⟨S5000x1, .f32⟩
  | .local _ .vmem, ⟨7, _⟩ => ⟨S5000x1, .f32⟩
  | .local _ .vmem, ⟨8, _⟩ => ⟨S5000x8, .f32⟩
  | .local _ .vmem, ⟨9, _⟩ => ⟨S5000x8, .f32⟩
  | .local _ .vmem, ⟨10, _⟩ => ⟨S5000x32, .f32⟩
  | .local _ .vmem, ⟨11, _⟩ => ⟨S5000x32, .f32⟩
  | .local _ .vmem, ⟨12, _⟩ => ⟨S8x32, .f32⟩
  | .local _ .vmem, ⟨13, _⟩ => ⟨S1x32, .f32⟩
  | .local _ .vmem, ⟨14, _⟩ => ⟨S5000x1, .f32⟩
  | .local _ .vmem, ⟨15, _⟩ => ⟨S5000x1, .f32⟩
  | .local _ .vmem, ⟨16, _⟩ => ⟨S5000x32, .f32⟩
  | .local _ .vmem, ⟨17, _⟩ => ⟨S5000x32, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S1x32, .f32⟩
  | .local _ .vmem, ⟨23, _⟩ => ⟨S1x32, .f32⟩
  | .local _ .vmem, ⟨24, _⟩ => ⟨S1x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  transposes_S16x8_S8x16_1_0 : S16x8.Transposes [1, 0] S8x16
  shapeCasts_S16_S1x16 : S16.ShapeCasts S1x16
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  reduces_S5000x16_S5000 : S5000x16.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  transposes_S32x8_S8x32_1_0 : S32x8.Transposes [1, 0] S8x32
  shapeCasts_S32_S1x32 : S32.ShapeCasts S1x32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  reduces_S5000x32_S5000 : S5000x32.Reduces [1] S5000
  bcast_S_S500000x1 : S_.BroadcastsInDim S500000x1 (![] : Fin 0 → Fin S500000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S5000x1_S5000x1 : S5000x1.ShapeCasts S5000x1
  gather_S200000x16_S2000000x1_S2000000x16_1_0_n_n_0_1_116_wf : GatherDims.WF S200000x16 S2000000x1 S2000000x16 [1] [0] [] [0] [] 1 ![1, 16]
  gather_S500000x32_S2000000x1_S2000000x32_1_0_n_n_0_1_132_wf : GatherDims.WF S500000x32 S2000000x1 S2000000x32 [1] [0] [] [0] [] 1 ![1, 32]
  dot_S5000x8_S8x16_S5000x16_1_0_0_1_n_n_wf : DotDims.WF S5000x8 S8x16 S5000x16 [1] [0] [0] [1] [] []
  dot_S5000x8_S8x32_S5000x32_1_0_0_1_n_n_wf : DotDims.WF S5000x8 S8x32 S5000x32 [1] [0] [0] [1] [] []
  scatter_S500000x1_S2000000x1_S2000000x1_1_0_0_1_wf : ScatterDims.WF S500000x1 S2000000x1 S2000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S2000000x8.size a
  hwx0_0 : ∀ i : grid0.Coords, EltTy.bits .f32 = 32 ∨ (Rect.block (s := S2000000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S2000000x16.size a
  hwx0_1 : ∀ i : grid0.Coords, EltTy.bits .f32 = 32 ∨ (Rect.block (s := S2000000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S8x16.size a
  hwx0_2 : ∀ i : grid0.Coords, EltTy.bits .f32 = 32 ∨ (Rect.block (s := S8x16) S8x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S2000000x1.size a
  hwx0_4 : ∀ i : grid0.Coords, EltTy.bits .f32 = 32 ∨ (Rect.block (s := S2000000x1) S5000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S2000000x8.size a
  hwx1_0 : ∀ i : grid1.Coords, EltTy.bits .f32 = 32 ∨ (Rect.block (s := S2000000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S2000000x32.size a
  hwx1_1 : ∀ i : grid1.Coords, EltTy.bits .f32 = 32 ∨ (Rect.block (s := S2000000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x32.size a ≤ S8x32.size a
  hwx1_2 : ∀ i : grid1.Coords, EltTy.bits .f32 = 32 ∨ (Rect.block (s := S8x32) S8x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S2000000x1.size a
  hwx1_4 : ∀ i : grid1.Coords, EltTy.bits .f32 = 32 ∨ (Rect.block (s := S2000000x1) S5000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S500000x32.size a
  hwx2_0 : ∀ i : grid2.Coords, EltTy.bits .f32 = 32 ∨ (Rect.block (s := S500000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S500000x1.size a
  hwx2_1 : ∀ i : grid2.Coords, EltTy.bits .f32 = 32 ∨ (Rect.block (s := S500000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S500000x1.size a
  hwx2_7 : ∀ i : grid2.Coords, EltTy.bits .f32 = 32 ∨ (Rect.block (s := S500000x1) S5000x1.size (cc2_transform_7 i) (hinb2_7 i)).WholeWords (EltTy.packing .f32)

variable [Facts₀]

def gather_S200000x16_S2000000x1_S2000000x16_1_0_n_n_0_1_116 : GatherDims S200000x16 S2000000x1 S2000000x16 where
  offsetDims := [1]
  collapsedSliceDims := [0]
  operandBatchingDims := []
  startIndicesBatchingDims := []
  startIndexMap := [0]
  indexVectorDim := 1
  sliceSizes := ![1, 16]
  wf := gather_S200000x16_S2000000x1_S2000000x16_1_0_n_n_0_1_116_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf
def dot_S5000x8_S8x16_S5000x16_1_0_0_1_n_n : DotDims S5000x8 S8x16 S5000x16 where
  lhsContracting := [1]
  rhsContracting := [0]
  lhsNonContracting := [0]
  rhsNonContracting := [1]
  lhsBatch := []
  rhsBatch := []
  wf := dot_S5000x8_S8x16_S5000x16_1_0_0_1_n_n_wf
def dot_S5000x8_S8x32_S5000x32_1_0_0_1_n_n : DotDims S5000x8 S8x32 S5000x32 where
  lhsContracting := [1]
  rhsContracting := [0]
  lhsNonContracting := [0]
  rhsNonContracting := [1]
  lhsBatch := []
  rhsBatch := []
  wf := dot_S5000x8_S8x32_S5000x32_1_0_0_1_n_n_wf
def scatter_S500000x1_S2000000x1_S2000000x1_1_0_0_1 : ScatterDims S500000x1 S2000000x1 S2000000x1 where
  updateWindowDims := [1]
  insertedWindowDims := [0]
  scatterDimsToOperandDims := [0]
  indexVectorDim := 1
  wf := scatter_S500000x1_S2000000x1_S2000000x1_1_0_0_1_wf

abbrev win0_0 : Pipeline.Window sig grid0 :=
  Pipeline.Window.ofSpec (Memref.whole main_arg2) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg3) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S500000x32 : Shape := ⟨2, ![500000, 32]⟩
abbrev S200000x16 : Shape := ⟨2, ![200000, 16]⟩
abbrev S2000000x8 : Shape := ⟨2, ![2000000, 8]⟩
abbrev S16x8 : Shape := ⟨2, ![16, 8]⟩
abbrev S16 : Shape := ⟨1, ![16]⟩
abbrev S32x8 : Shape := ⟨2, ![32, 8]⟩
abbrev S32 : Shape := ⟨1, ![32]⟩
abbrev S1x32 : Shape := ⟨2, ![1, 32]⟩
abbrev S1 : Shape := ⟨1, ![1]⟩
abbrev S2000000 : Shape := ⟨1, ![2000000]⟩
abbrev S8x16 : Shape := ⟨2, ![8, 16]⟩
abbrev S2000000x16 : Shape := ⟨2, ![2000000, 16]⟩
abbrev S1x16 : Shape := ⟨2, ![1, 16]⟩
abbrev S_ : Shape := ⟨0, ![]⟩
abbrev S2000000x1 : Shape := ⟨2, ![2000000, 1]⟩
abbrev S500000x1 : Shape := ⟨2, ![500000, 1]⟩
abbrev S32x1 : Shape := ⟨2, ![32, 1]⟩
abbrev S1x1 : Shape := ⟨2, ![1, 1]⟩
abbrev S8x32 : Shape := ⟨2, ![8, 32]⟩
abbrev S2000000x32 : Shape := ⟨2, ![2000000, 32]⟩

abbrev nBuf : Space → Nat
  | .hbm => 73
  | .vmem => 0
  | .smem => 0
  | _ => 0

abbrev bufTy : (tb : Table) → Fin (tcTables nBuf tb) → BufTy
  | .hbm, ⟨0, _⟩ => ⟨S500000x32, .f32⟩
  | .hbm, ⟨1, _⟩ => ⟨S200000x16, .f32⟩
  | .hbm, ⟨2, _⟩ => ⟨S2000000x8, .f32⟩
  | .hbm, ⟨3, _⟩ => ⟨S2000000x8, .f32⟩
  | .hbm, ⟨4, _⟩ => ⟨S16x8, .f32⟩
  | .hbm, ⟨5, _⟩ => ⟨S16, .f32⟩
  | .hbm, ⟨6, _⟩ => ⟨S32x8, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1x32, .f32⟩
  | .hbm, ⟨11, _⟩ => ⟨S1, .f32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S8x16, .f32⟩
  | .hbm, ⟨17, _⟩ => ⟨S2000000x16, .f32⟩
  | .hbm, ⟨18, _⟩ => ⟨S1x16, .f32⟩
  | .hbm, ⟨19, _⟩ => ⟨S2000000x16, .f32⟩
  | .hbm, ⟨20, _⟩ => ⟨S2000000x16, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x16, .f32⟩
  | .hbm, ⟨30, _⟩ => ⟨S2000000x16, .f32⟩
  | .hbm, ⟨31, _⟩ => ⟨S_, .f32⟩
  | .hbm, ⟨32, _⟩ => ⟨S2000000, .f32⟩
  | .hbm, ⟨33, _⟩ => ⟨S2000000x1, .f32⟩
  | .hbm, ⟨34, _⟩ => ⟨S_, .f32⟩
  | .hbm, ⟨35, _⟩ => ⟨S500000x1, .f32⟩
  | .hbm, ⟨36, _⟩ => ⟨S2000000x1, .i32⟩
  | .hbm, ⟨37, _⟩ => ⟨S500000x1, .f32⟩
  | .hbm, ⟨38, _⟩ => ⟨S32x1, .f32⟩
  | .hbm, ⟨39, _⟩ => ⟨S500000x1, .f32⟩
  | .hbm, ⟨40, _⟩ => ⟨S500000x1, .f32⟩
  | .hbm, ⟨41, _⟩ => ⟨S1x1, .f32⟩
  | .hbm, ⟨42, _⟩ => ⟨S500000x1, .f32⟩
  | .hbm, ⟨43, _⟩ => ⟨S500000x1, .f32⟩
  | .hbm, ⟨44, _⟩ => ⟨S8x32, .f32⟩
  | .hbm, ⟨45, _⟩ => ⟨S2000000x32, .f32⟩
  | .hbm, ⟨46, _⟩ => ⟨S1x32, .f32⟩
  | .hbm, ⟨47, _⟩ => ⟨S2000000x32, .f32⟩
  | .hbm, ⟨48, _⟩ => ⟨S2000000x32, .f32⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000x32, .f32⟩
  | .hbm, ⟨58, _⟩ => ⟨S2000000x32, .f32⟩
  | .hbm, ⟨59, _⟩ => ⟨S_, .f32⟩
  | .hbm, ⟨60, _⟩ => ⟨S2000000, .f32⟩
  | .hbm, ⟨61, _⟩ => ⟨S2000000x1, .f32⟩
  | .hbm, ⟨62, _⟩ => ⟨S_, .f32⟩
  | .hbm, ⟨63, _⟩ => ⟨S500000x1, .f32⟩
  | .hbm, ⟨64, _⟩ => ⟨S2000000x1, .i32⟩
  | .hbm, ⟨65, _⟩ => ⟨S500000x1, .f32⟩
  | .hbm, ⟨66, _⟩ => ⟨S32x1, .f32⟩
  | .hbm, ⟨67, _⟩ => ⟨S500000x1, .f32⟩
  | .hbm, ⟨68, _⟩ => ⟨S500000x1, .f32⟩
  | .hbm, ⟨69, _⟩ => ⟨S1x1, .f32⟩
  | .hbm, ⟨70, _⟩ => ⟨S500000x1, .f32⟩
  | .hbm, ⟨71, _⟩ => ⟨S500000x1, .f32⟩
  | .hbm, ⟨72, _⟩ => ⟨S500000x1, .f32⟩
  | _, _ => ⟨S500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_2 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  transposes_S16x8_S8x16_1_0 : S16x8.Transposes [1, 0] S8x16
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x16_S2000000_d1 : S2000000x16.ReducesTo [1] S2000000
  h_S_ : 0 < S_.numel
  bcast_S_S500000x1 : S_.BroadcastsInDim S500000x1 (![] : Fin 0 → Fin S500000x1.rank)
  transposes_S1x32_S32x1_1_0 : S1x32.Transposes [1, 0] S32x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  transposes_S32x8_S8x32_1_0 : S32x8.Transposes [1, 0] S8x32
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  reducesTo_S2000000x32_S2000000_d1 : S2000000x32.ReducesTo [1] S2000000
  dot_S2000000x8_S8x16_S2000000x16_1_0_0_1_n_n_wf : DotDims.WF S2000000x8 S8x16 S2000000x16 [1] [0] [0] [1] [] []
  gather_S200000x16_S2000000x1_S2000000x16_1_0_n_n_0_1_116_wf : GatherDims.WF S200000x16 S2000000x1 S2000000x16 [1] [0] [] [0] [] 1 ![1, 16]
  scatter_S500000x1_S2000000x1_S2000000x1_1_0_0_1_wf : ScatterDims.WF S500000x1 S2000000x1 S2000000x1 [1] [0] [0] 1
  dot_S500000x32_S32x1_S500000x1_1_0_0_1_n_n_wf : DotDims.WF S500000x32 S32x1 S500000x1 [1] [0] [0] [1] [] []
  dot_S2000000x8_S8x32_S2000000x32_1_0_0_1_n_n_wf : DotDims.WF S2000000x8 S8x32 S2000000x32 [1] [0] [0] [1] [] []
  gather_S500000x32_S2000000x1_S2000000x32_1_0_n_n_0_1_132_wf : GatherDims.WF S500000x32 S2000000x1 S2000000x32 [1] [0] [] [0] [] 1 ![1, 32]

variable [Facts₀]

def dot_S2000000x8_S8x16_S2000000x16_1_0_0_1_n_n : DotDims S2000000x8 S8x16 S2000000x16 where
  lhsContracting := [1]
  rhsContracting := [0]
  lhsNonContracting := [0]
  rhsNonContracting := [1]
  lhsBatch := []
  rhsBatch := []
  wf := dot_S2000000x8_S8x16_S2000000x16_1_0_0_1_n_n_wf
def gather_S200000x16_S2000000x1_S2000000x16_1_0_n_n_0_1_116 : GatherDims S200000x16 S2000000x1 S2000000x16 where
  offsetDims := [1]
  collapsedSliceDims := [0]
  operandBatchingDims := []
  startIndicesBatchingDims := []
  startIndexMap := [0]
  indexVectorDim := 1
  sliceSizes := ![1, 16]
  wf := gather_S200000x16_S2000000x1_S2000000x16_1_0_n_n_0_1_116_wf
def scatter_S500000x1_S2000000x1_S2000000x1_1_0_0_1 : ScatterDims S500000x1 S2000000x1 S2000000x1 where
  updateWindowDims := [1]
  insertedWindowDims := [0]
  scatterDimsToOperandDims := [0]
  indexVectorDim := 1
  wf := scatter_S500000x1_S2000000x1_S2000000x1_1_0_0_1_wf
def dot_S500000x32_S32x1_S500000x1_1_0_0_1_n_n : DotDims S500000x32 S32x1 S500000x1 where
  lhsContracting := [1]
  rhsContracting := [0]
  lhsNonContracting := [0]
  rhsNonContracting := [1]
  lhsBatch := []
  rhsBatch := []
  wf := dot_S500000x32_S32x1_S500000x1_1_0_0_1_n_n_wf
def dot_S2000000x8_S8x32_S2000000x32_1_0_0_1_n_n : DotDims S2000000x8 S8x32 S2000000x32 where
  lhsContracting := [1]
  rhsContracting := [0]
  lhsNonContracting := [0]
  rhsNonContracting := [1]
  lhsBatch := []
  rhsBatch := []
  wf := dot_S2000000x8_S8x32_S2000000x32_1_0_0_1_n_n_wf
def gather_S500000x32_S2000000x1_S2000000x32_1_0_n_n_0_1_132 : GatherDims S500000x32 S2000000x1 S2000000x32 where
  offsetDims := [1]
  collapsedSliceDims := [0]
  operandBatchingDims := []
  startIndicesBatchingDims := []
  startIndexMap := [0]
  indexVectorDim := 1
  sliceSizes := ![1, 32]
  wf := gather_S500000x32_S2000000x1_S2000000x32_1_0_n_n_0_1_132_wf

class Facts : Prop extends Facts₀ where

variable [Facts]
-- ==== Proof.LaunchArgs.lean ====
import proofs.«142884_j53798760349842_1_alg».proof.Proof.Gen.KernelIdeal.Frame
import Idealize.ShloMosaic.Lib.StableHlo.Run
import Idealize.ShloMosaic.PureOps.Ideal.Laws

set_option maxRecDepth 16384

noncomputable section

namespace Cert.LaunchArgs

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg)

/-! ## After the first stretch of host operations (none of them writes a launch argument) -/

theorem arg0_at1 (c : Dev nD) : W1 m ρ c (Proc.devRef .tc main_arg0) = m ((c : Thread nD τ).loc main_arg0) := by
  show StableHlo.after hostOps0 (W0 m ρ c) (Proc.devRef .tc main_arg0) = _
  after_results <;> rfl

theorem arg3_at1 (c : Dev nD) : W1 m ρ c (Proc.devRef .tc main_arg3) = m ((c : Thread nD τ).loc main_arg3) := by
  show StableHlo.after hostOps0 (W0 m ρ c) (Proc.devRef .tc main_arg3) = _
  after_results <;> rfl

theorem arg6_at1 (c : Dev nD) : W1 m ρ c (Proc.devRef .tc main_arg6) = m ((c : Thread nD τ).loc main_arg6) := by
  show StableHlo.after hostOps0 (W0 m ρ c) (Proc.devRef .tc main_arg6) = _
  after_results <;> rfl

theorem arg7_at1 (c : Dev nD) : W1 m ρ c (Proc.devRef .tc main_arg7) = m ((c : Thread nD τ).loc main_arg7) := by
  show StableHlo.after hostOps0 (W0 m ρ c) (Proc.devRef .tc main_arg7) = _
  after_results <;> rfl

theorem arg8_at1 (c : Dev nD) : W1 m ρ c (Proc.devRef .tc main_arg8) = m ((c : Thread nD τ).loc main_arg8) := by
  show StableHlo.after hostOps0 (W0 m ρ c) (Proc.devRef .tc main_arg8) = _
  after_results <;> rfl

theorem arg9_at1 (c : Dev nD) : W1 m ρ c (Proc.devRef .tc main_arg9) = m ((c : Thread nD τ).loc main_arg9) := by
  show StableHlo.after hostOps0 (W0 m ρ c) (Proc.devRef .tc main_arg9) = _
  after_results <;> rfl

theorem arg10_at1 (c : Dev nD) : W1 m ρ c (Proc.devRef .tc main_arg10) = m ((c : Thread nD τ).loc main_arg10) := by
  show StableHlo.after hostOps0 (W0 m ρ c) (Proc.devRef .tc main_arg10) = _
  after_results <;> rfl

theorem arg11_at1 (c : Dev nD) : W1 m ρ c (Proc.devRef .tc main_arg11) = m ((c : Thread nD τ).loc main_arg11) := by
  show StableHlo.after hostOps0 (W0 m ρ c) (Proc.devRef .tc main_arg11) = _
  after_results <;> rfl

theorem arg13_at1 (c : Dev nD) : W1 m ρ c (Proc.devRef .tc main_arg13) = m ((c : Thread nD τ).loc main_arg13) := by
  show StableHlo.after hostOps0 (W0 m ρ c) (Proc.devRef .tc main_arg13) = _
  after_results <;> rfl

theorem arg15_at1 (c : Dev nD) : W1 m ρ c (Proc.devRef .tc main_arg15) = m ((c : Thread nD τ).loc main_arg15) := by
  show StableHlo.after hostOps0 (W0 m ρ c) (Proc.devRef .tc main_arg15) = _
  after_results <;> rfl

/-! ## After the first kernel (it writes its output column only) -/

theorem arg0_at2 (c : Dev nD) : W2 m ρ c (Proc.devRef .tc main_arg0) = m ((c : Thread nD τ).loc main_arg0) :=
  (W2_of_ne m ρ c main_arg0 (by decide)).trans (arg0_at1 m ρ c)

theorem arg3_at2 (c : Dev nD) : W2 m ρ c (Proc.devRef .tc main_arg3) = m ((c : Thread nD τ).loc main_arg3) :=
  (W2_of_ne m ρ c main_arg3 (by decide)).trans (arg3_at1 m ρ c)

theorem arg6_at2 (c : Dev nD) : W2 m ρ c (Proc.devRef .tc main_arg6) = m ((c : Thread nD τ).loc main_arg6) :=
  (W2_of_ne m ρ c main_arg6 (by decide)).trans (arg6_at1 m ρ c)

theorem arg7_at2 (c : Dev nD) : W2 m ρ c (Proc.devRef .tc main_arg7) = m ((c : Thread nD τ).loc main_arg7) :=
  (W2_of_ne m ρ c main_arg7 (by decide)).trans (arg7_at1 m ρ c)

theorem arg8_at2 (c : Dev nD) : W2 m ρ c (Proc.devRef .tc main_arg8) = m ((c : Thread nD τ).loc main_arg8) :=
  (W2_of_ne m ρ c main_arg8 (by decide)).trans (arg8_at1 m ρ c)

theorem arg9_at2 (c : Dev nD) : W2 m ρ c (Proc.devRef .tc main_arg9) = m ((c : Thread nD τ).loc main_arg9) :=
  (W2_of_ne m ρ c main_arg9 (by decide)).trans (arg9_at1 m ρ c)

theorem arg10_at2 (c : Dev nD) : W2 m ρ c (Proc.devRef .tc main_arg10) = m ((c : Thread nD τ).loc main_arg10) :=
  (W2_of_ne m ρ c main_arg10 (by decide)).trans (arg10_at1 m ρ c)

theorem arg11_at2 (c : Dev nD) : W2 m ρ c (Proc.devRef .tc main_arg11) = m ((c : Thread nD τ).loc main_arg11) :=
  (W2_of_ne m ρ c main_arg11 (by decide)).trans (arg11_at1 m ρ c)

theorem arg13_at2 (c : Dev nD) : W2 m ρ c (Proc.devRef .tc main_arg13) = m ((c : Thread nD τ).loc main_arg13) :=
  (W2_of_ne m ρ c main_arg13 (by decide)).trans (arg13_at1 m ρ c)

theorem arg15_at2 (c : Dev nD) : W2 m ρ c (Proc.devRef .tc main_arg15) = m ((c : Thread nD τ).loc main_arg15) :=
  (W2_of_ne m ρ c main_arg15 (by decide)).trans (arg15_at1 m ρ c)

/-! ## After the second stretch -/

theorem arg0_at3 (c : Dev nD) : W3 m ρ c (Proc.devRef .tc main_arg0) = m ((c : Thread nD τ).loc main_arg0) := by
  show StableHlo.after hostOps1 (W2 m ρ c) (Proc.devRef .tc main_arg0) = _
  after_results
  exact arg0_at2 m ρ c

theorem arg8_at3 (c : Dev nD) : W3 m ρ c (Proc.devRef .tc main_arg8) = m ((c : Thread nD τ).loc main_arg8) := by
  show StableHlo.after hostOps1 (W2 m ρ c) (Proc.devRef .tc main_arg8) = _
  after_results
  exact arg8_at2 m ρ c

theorem arg9_at3 (c : Dev nD) : W3 m ρ c (Proc.devRef .tc main_arg9) = m ((c : Thread nD τ).loc main_arg9) := by
  show StableHlo.after hostOps1 (W2 m ρ c) (Proc.devRef .tc main_arg9) = _
  after_results
  exact arg9_at2 m ρ c

theorem arg10_at3 (c : Dev nD) : W3 m ρ c (Proc.devRef .tc main_arg10) = m ((c : Thread nD τ).loc main_arg10) := by
  show StableHlo.after hostOps1 (W2 m ρ c) (Proc.devRef .tc main_arg10) = _
  after_results
  exact arg10_at2 m ρ c

theorem arg11_at3 (c : Dev nD) : W3 m ρ c (Proc.devRef .tc main_arg11) = m ((c : Thread nD τ).loc main_arg11) := by
  show StableHlo.after hostOps1 (W2 m ρ c) (Proc.devRef .tc main_arg11) = _
  after_results
  exact arg11_at2 m ρ c

theorem arg13_at3 (c : Dev nD) : W3 m ρ c (Proc.devRef .tc main_arg13) = m ((c : Thread nD τ).loc main_arg13) := by
  show StableHlo.after hostOps1 (W2 m ρ c) (Proc.devRef .tc main_arg13) = _
  after_results
  exact arg13_at2 m ρ c

theorem arg15_at3 (c : Dev nD) : W3 m ρ c (Proc.devRef .tc main_arg15) = m ((c : Thread nD τ).loc main_arg15) := by
  show StableHlo.after hostOps1 (W2 m ρ c) (Proc.devRef .tc main_arg15) = _
  after_results
  exact arg15_at2 m ρ c

/-! ## After the second kernel -/

theorem arg0_at4 (c : Dev nD) : W4 m ρ c (Proc.devRef .tc main_arg0) = m ((c : Thread nD τ).loc main_arg0) :=
  (W4_of_ne m ρ c main_arg0 (by decide)).trans (arg0_at3 m ρ c)

theorem arg8_at4 (c : Dev nD) : W4 m ρ c (Proc.devRef .tc main_arg8) = m ((c : Thread nD τ).loc main_arg8) :=
  (W4_of_ne m ρ c main_arg8 (by decide)).trans (arg8_at3 m ρ c)

theorem arg9_at4 (c : Dev nD) : W4 m ρ c (Proc.devRef .tc main_arg9) = m ((c : Thread nD τ).loc main_arg9) :=
  (W4_of_ne m ρ c main_arg9 (by decide)).trans (arg9_at3 m ρ c)

theorem arg10_at4 (c : Dev nD) : W4 m ρ c (Proc.devRef .tc main_arg10) = m ((c : Thread nD τ).loc main_arg10) :=
  (W4_of_ne m ρ c main_arg10 (by decide)).trans (arg10_at3 m ρ c)

theorem arg11_at4 (c : Dev nD) : W4 m ρ c (Proc.devRef .tc main_arg11) = m ((c : Thread nD τ).loc main_arg11) :=
  (W4_of_ne m ρ c main_arg11 (by decide)).trans (arg11_at3 m ρ c)

theorem arg13_at4 (c : Dev nD) : W4 m ρ c (Proc.devRef .tc main_arg13) = m ((c : Thread nD τ).loc main_arg13) :=
  (W4_of_ne m ρ c main_arg13 (by decide)).trans (arg13_at3 m ρ c)

theorem arg15_at4 (c : Dev nD) : W4 m ρ c (Proc.devRef .tc main_arg15) = m ((c : Thread nD τ).loc main_arg15) :=
  (W4_of_ne m ρ c main_arg15 (by decide)).trans (arg15_at3 m ρ c)

end Cert.LaunchArgs

end
-- ==== Proof.Forms.lean ====
/-
  The reference, cut at its gathers and scatter-adds into three functions of abstract arrays.

  An edge-conditioned convolution with ONE output channel sends along edge `e` the number
      msg e = Σ_f xg[e,f] · ( Σ_k ea[e,k] · wT[k,f] + b[0,f] )
  where `xg` holds the source node's features already gathered per edge, `ea` the edge's attributes, `wT` the
  transposed weight of the edge network and `b` its bias. `edgeMsg16` / `edgeMsg32` are that column for source
  features of width 16 and 32. After the messages are summed per destination node (`aggh`, `aggi`: whatever the
  two scatter-adds produce) the layer's output is
      out n = (aggh n + Σ_f x[n,f]·wh[0,f] + bh) + (aggi n + Σ_f x[n,f]·wi[0,f] + bi),
  `rootSum`. Each definition is spelled with the host operations in the order the reference program applies them,
  so the reference's result term is these three functions composed with its gathers and scatter-adds, by unfolding.
-/
import proofs.«142884_j53798760349842_1_alg».proof.ReferenceIdeal
import proofs.«142884_j53798760349842_1_alg».proof.Proof.Gen.ReferenceIdeal
import Idealize.ShloMosaic.PureOps.Ideal.Laws
import Idealize.ShloMosaic.Lib.ValueIdx
import Idealize.ShloMosaic.Lib.Pipeline.Value

noncomputable section

namespace Cert.Forms

open Idealize.ShloMosaic Cert.ReferenceIdeal Cert.ReferenceIdeal.Gen

variable {F : FTy → Type} [FloatOps F]

/-- The message column of the edges whose source features have width 16. -/
def edgeMsg16 (ea : FVec F S2000000x8 .f32) (xg : FVec F S2000000x16 .f32) (wT : FVec F S8x16 .f32)
    (b : FVec F S1x16 .f32) : FVec F S2000000x1 .f32 :=
  broadcastInDim S2000000x1 ![0] bcast_S2000000_S2000000x1_0
    (Host.reduceAdd
      (mulf xg (addf (Host.dotGeneral dot_S2000000x8_S8x16_S2000000x16_1_0_0_1_n_n none ea wT)
        (broadcastInDim S2000000x16 ![0, 1] bcast_S1x16_S2000000x16_0_1 b)))
      (constant S_ .f32 0x00000000#32) reducesTo_S2000000x16_S2000000_d1 h_S_)

/-- The message column of the edges whose source features have width 32. -/
def edgeMsg32 (ea : FVec F S2000000x8 .f32) (xg : FVec F S2000000x32 .f32) (wT : FVec F S8x32 .f32)
    (b : FVec F S1x32 .f32) : FVec F S2000000x1 .f32 :=
  broadcastInDim S2000000x1 ![0] bcast_S2000000_S2000000x1_0
    (Host.reduceAdd
      (mulf xg (addf (Host.dotGeneral dot_S2000000x8_S8x32_S2000000x32_1_0_0_1_n_n none ea wT)
        (broadcastInDim S2000000x32 ![0, 1] bcast_S1x32_S2000000x32_0_1 b)))
      (constant S_ .f32 0x00000000#32) reducesTo_S2000000x32_S2000000_d1 h_S_)

/-- The two relations' outputs added: each is its aggregate plus the root term `x · wᵀ` plus its bias. -/
def rootSum (x : FVec F S500000x32 .f32) (aggh aggi : FVec F S500000x1 .f32) (wh wi : FVec F S1x32 .f32)
    (bh bi : FVec F S1x1 .f32) : FVec F S500000x1 .f32 :=
  addf
    (addf (addf aggh (Host.dotGeneral dot_S500000x32_S32x1_S500000x1_1_0_0_1_n_n none x
        (transpose S32x1 [1, 0] wh transposes_S1x32_S32x1_1_0)))
      (broadcastInDim S500000x1 ![0, 1] bcast_S1x1_S500000x1_0_1 bh))
    (addf (addf aggi (Host.dotGeneral dot_S500000x32_S32x1_S500000x1_1_0_0_1_n_n none x
        (transpose S32x1 [1, 0] wi transposes_S1x32_S32x1_1_0)))
      (broadcastInDim S500000x1 ![0, 1] bcast_S1x1_S500000x1_0_1 bi))

end Cert.Forms

end
-- ==== Proof.Layer.lean ====
/-
  The whole layer as one function of the sixteen argument arrays, in the reference's own operations.

  Row indices reach a gather wrapped as jnp wraps them (a negative index counts from the end), as a column; the
  messages of a relation are summed per destination node by a scatter-add into zeros; the layer is `rootSum` of the
  two relations' aggregates. The biases enter as a 1×n row of a length-n vector: the reference spells that as a
  broadcast along a new leading axis, the kernel's program as a reshape, and both read the vector at the trailing
  coordinate.
-/
import proofs.«142884_j53798760349842_1_alg».proof.Proof.Forms

noncomputable section

namespace Cert.Forms

open Idealize.ShloMosaic Cert.ReferenceIdeal Cert.ReferenceIdeal.Gen

variable {F : FTy → Type} [FloatOps F]

/-- Row indices as a gather takes them: a negative index counts from the end of an axis of extent `n`
    (`i < 0 ↦ i + n`), laid out as a column. -/
def wrapped (n : BitVec 32) (i : (⟨S2000000, .i32⟩ : BufTy).Contents (Elt F)) :
    (⟨S2000000x1, .i32⟩ : BufTy).Contents (Elt F) :=
  broadcastInDim S2000000x1 ![0] bcast_S2000000_S2000000x1_0
    (select (cmpi .slt i (broadcastInDim S2000000 ![] bcast_S_S2000000 (constantI S_ 32 0#32)))
      (addi i (broadcastInDim S2000000 ![] bcast_S_S2000000 (constantI S_ 32 n))) i)

/-- The per-destination sums of a message column: its scatter-add into zeros at the destination indices. -/
def aggregated (dst : (⟨S2000000, .i32⟩ : BufTy).Contents (Elt F)) (msg : FVec F S2000000x1 .f32) :
    FVec F S500000x1 .f32 :=
  Host.scatterAdd scatter_S500000x1_S2000000x1_S2000000x1_1_0_0_1
    (broadcastInDim S500000x1 ![] bcast_S_S500000x1 (constant S_ .f32 0x00000000#32))
    (broadcastInDim S2000000x1 ![0] bcast_S2000000_S2000000x1_0 dst) msg

/-- The layer's output column from the launch arguments, in their order in @main's signature. -/
def layer (x0 : FVec F S500000x32 .f32) (x1 : FVec F S200000x16 .f32) (x2 x3 : FVec F S2000000x8 .f32)
    (x4 : FVec F S16x8 .f32) (x5 : FVec F S16 .f32) (x6 : FVec F S32x8 .f32) (x7 : FVec F S32 .f32)
    (x8 : FVec F S1x32 .f32) (x9 : FVec F S1 .f32) (x10 : FVec F S1x32 .f32) (x11 : FVec F S1 .f32)
    (i12 i13 i14 i15 : (⟨S2000000, .i32⟩ : BufTy).Contents (Elt F)) : FVec F S500000x1 .f32 :=
  rootSum x0
    (aggregated i13 (edgeMsg16 x2
      (Host.gather gather_S200000x16_S2000000x1_S2000000x16_1_0_n_n_0_1_116 x1 (wrapped 200000#32 i12))
      (transpose S8x16 [1, 0] x4 transposes_S16x8_S8x16_1_0) (broadcastInDim S1x16 ![1] bcast_S16_S1x16_1 x5)))
    (aggregated i15 (edgeMsg32 x3
      (Host.gather gather_S500000x32_S2000000x1_S2000000x32_1_0_n_n_0_1_132 x0 (wrapped 500000#32 i14))
      (transpose S8x32 [1, 0] x6 transposes_S32x8_S8x32_1_0) (broadcastInDim S1x32 ![1] bcast_S32_S1x32_1 x7)))
    x8 x10 (broadcastInDim S1x1 ![1] bcast_S1_S1x1_1 x9) (broadcastInDim S1x1 ![1] bcast_S1_S1x1_1 x11)

/-! ## A length-n vector as a 1×n row: by a reshape, or by a broadcast along a new leading axis -/

theorem row_of_vector {n : Nat} {α : Type} (v : (⟨1, ![n]⟩ : Shape).Idx → α)
    (hs : (⟨1, ![n]⟩ : Shape).ShapeCasts ⟨2, ![1, n]⟩)
    (hb : (⟨1, ![n]⟩ : Shape).BroadcastsInDim ⟨2, ![1, n]⟩ (![1] : Fin 1 → Fin 2)) :
    shapeCast (⟨2, ![1, n]⟩ : Shape) v hs = broadcastInDim (⟨2, ![1, n]⟩ : Shape) ![1] hb v := by
  funext j
  rw [shapeCast_addUnit_apply ![n] v hs j]
  refine (broadcastInDim_apply (![1] : Fin 1 → Fin 2) hb v j (fun a => j a.succ) (fun a => ?_)).symm
  match a with
  | ⟨0, _⟩ =>
    show (j 1).val = if n = 1 then 0 else (j 1).val
    by_cases h : n = 1
    · rw [if_pos h]
      have hj : (j 1).val < n := (j 1).isLt
      omega
    · rw [if_neg h]

end Cert.Forms

end
-- ==== Proof.Boundary.lean ====
/-
  The contents of every buffer the three kernels read, traced back to the launch memory.

  @main is: a stretch of host operations (the two row gathers, a transpose and a reshape), the first message kernel,
  a second stretch (a transpose and a reshape), the second message kernel, a third stretch (the two scatter-adds into
  zeros and two reshapes), the combining kernel. At each boundary a buffer holds either what a host operation of the
  stretch just before wrote there, or what a kernel's write-backs left there, or what it held one boundary earlier.
  `W1 … W6` are the frame's names for the contents at the six boundaries; `V1`, `V3`, `V5` are the same contents
  as the three kernels find them. Each lemma below reads ONE buffer at ONE kernel's entry.
-/
import proofs.«142884_j53798760349842_1_alg».proof.Proof.LaunchArgs
import proofs.«142884_j53798760349842_1_alg».proof.Proof.Layer

set_option maxRecDepth 16384

noncomputable section

namespace Cert.Boundary

open Idealize.ShloMosaic Idealize.ShloMosaic.TcCoe Idealize.ShloMosaic.StableHlo
open Idealize.SL.Sem
open Cert.KernelIdeal Cert.KernelIdeal.Gen Cert.LaunchArgs

variable (m : (ℓ : Loc nD τ sig) → Buf (Elt Ideal) ℓ) (ρ : Dev nD → PrngReg)

/-! ## At the first message kernel's entry -/

/-- The edge attributes are a launch argument. -/
theorem entry0_attr (c : Dev nD) : V1 m ρ c main_arg2 = m ((c : Thread nD τ).loc main_arg2) := by
  show StableHlo.after hostOps0 (W0 m ρ c) (Proc.devRef .tc main_arg2) = _
  after_results <;> rfl

/-- The source features per edge: the house features gathered at the wrapped source indices. -/
theorem entry0_src (c : Dev nD) :
    V1 m ρ c main_v6
      = Host.gather gather_S200000x16_S2000000x1_S2000000x16_1_0_n_n_0_1_116 (m ((c : Thread nD τ).loc main_arg1))
          (Cert.Forms.wrapped (F := Ideal) 200000#32 (m ((c : Thread nD τ).loc main_arg12))) := by
  show StableHlo.after hostOps0 (W0 m ρ c) (Proc.devRef .tc main_v6) = _
  after_results <;> rfl

/-- The edge network's weight, transposed. -/
theorem entry0_weight (c : Dev nD) :
    V1 m ρ c main_v14 = transpose S8x16 [1, 0] (m ((c : Thread nD τ).loc main_arg4)) transposes_S16x8_S8x16_1_0 := by
  show StableHlo.after hostOps0 (W0 m ρ c) (Proc.devRef .tc main_v14) = _
  after_results <;> rfl

/-- The edge network's bias as a 1×16 row. -/
theorem entry0_bias (c : Dev nD) :
    V1 m ρ c main_v15 = shapeCast S1x16 (m ((c : Thread nD τ).loc main_arg5)) shapeCasts_S16_S1x16 := by
  show StableHlo.after hostOps0 (W0 m ρ c) (Proc.devRef .tc main_v15) = _
  after_results <;> rfl

/-! ## At the second message kernel's entry -/

/-- Its gathered source rows are written by the FIRST stretch, and the first kernel does not touch them. -/
theorem src32_at2 (c : Dev nD) :
    W2 m ρ c (Proc.devRef .tc main_v13)
      = Host.gather gather_S500000x32_S2000000x1_S2000000x32_1_0_n_n_0_1_132 (m ((c : Thread nD τ).loc main_arg0))
          (Cert.Forms.wrapped (F := Ideal) 500000#32 (m ((c : Thread nD τ).loc main_arg14))) := by
  refine (W2_of_ne m ρ c main_v13 (by decide)).trans ?_
  show StableHlo.after hostOps0 (W0 m ρ c) (Proc.devRef .tc main_v13) = _
  after_results <;> rfl

theorem entry1_attr (c : Dev nD) : V3 m ρ c main_arg3 = m ((c : Thread nD τ).loc main_arg3) := by
  show StableHlo.after hostOps1 (W2 m ρ c) (Proc.devRef .tc main_arg3) = _
  after_results
  exact arg3_at2 m ρ c

theorem entry1_src (c : Dev nD) :
    V3 m ρ c main_v13
      = Host.gather gather_S500000x32_S2000000x1_S2000000x32_1_0_n_n_0_1_132 (m ((c : Thread nD τ).loc main_arg0))
          (Cert.Forms.wrapped (F := Ideal) 500000#32 (m ((c : Thread nD τ).loc main_arg14))) := by
  show StableHlo.after hostOps1 (W2 m ρ c) (Proc.devRef .tc main_v13) = _
  after_results
  exact src32_at2 m ρ c

theorem entry1_weight (c : Dev nD) :
    V3 m ρ c main_v17 = transpose S8x32 [1, 0] (m ((c : Thread nD τ).loc main_arg6)) transposes_S32x8_S8x32_1_0 := by
  show StableHlo.after hostOps1 (W2 m ρ c) (Proc.devRef .tc main_v17) = _
  after_results
  rw [arg6_at2 m ρ c]

theorem entry1_bias (c : Dev nD) :
    V3 m ρ c main_v18 = shapeCast S1x32 (m ((c : Thread nD τ).loc main_arg7)) shapeCasts_S32_S1x32 := by
  show StableHlo.after hostOps1 (W2 m ρ c) (Proc.devRef .tc main_v18) = _
  after_results
  rw [arg7_at2 m ρ c]
  rfl

/-! ## At the combining kernel's entry -/

/-- The first kernel's message column is still there when the third stretch reads it: neither the second stretch
    nor the second kernel writes it. -/
theorem msg16_at4 (c : Dev nD) : W4 m ρ c (Proc.devRef .tc main_v16) = W2 m ρ c (Proc.devRef .tc main_v16) := by
  refine (W4_of_ne m ρ c main_v16 (by decide)).trans ?_
  show StableHlo.after hostOps1 (W2 m ρ c) (Proc.devRef .tc main_v16) = _
  after_results <;> rfl

theorem entry2_x (c : Dev nD) : V5 m ρ c main_arg0 = m ((c : Thread nD τ).loc main_arg0) := by
  show StableHlo.after hostOps2 (W4 m ρ c) (Proc.devRef .tc main_arg0) = _
  after_results
  exact arg0_at4 m ρ c

theorem entry2_wh (c : Dev nD) : V5 m ρ c main_arg8 = m ((c : Thread nD τ).loc main_arg8) := by
  show StableHlo.after hostOps2 (W4 m ρ c) (Proc.devRef .tc main_arg8) = _
  after_results
  exact arg8_at4 m ρ c

theorem entry2_wi (c : Dev nD) : V5 m ρ c main_arg10 = m ((c : Thread nD τ).loc main_arg10) := by
  show StableHlo.after hostOps2 (W4 m ρ c) (Proc.devRef .tc main_arg10) = _
  after_results
  exact arg10_at4 m ρ c

theorem entry2_bh (c : Dev nD) :
    V5 m ρ c main_v26 = shapeCast S1x1 (m ((c : Thread nD τ).loc main_arg9)) shapeCasts_S1_S1x1 := by
  show StableHlo.after hostOps2 (W4 m ρ c) (Proc.devRef .tc main_v26) = _
  after_results
  rw [arg9_at4 m ρ c]
  rfl

theorem entry2_bi (c : Dev nD) :
    V5 m ρ c main_v27 = shapeCast S1x1 (m ((c : Thread nD τ).loc main_arg11)) shapeCasts_S1_S1x1 := by
  show StableHlo.after hostOps2 (W4 m ρ c) (Proc.devRef .tc main_v27) = _
  after_results
  rw [arg11_at4 m ρ c]
  rfl

/-- The first relation's aggregate: the scatter-add of the first kernel's message column. -/
theorem entry2_aggh (c : Dev nD) :
    V5 m ρ c main_v22
      = Cert.Forms.aggregated (F := Ideal) (m ((c : Thread nD τ).loc main_arg13)) (W2 m ρ c (Proc.devRef .tc main_v16)) := by
  show StableHlo.after hostOps2 (W4 m ρ c) (Proc.devRef .tc main_v22) = _
  after_results
  rw [arg13_at4 m ρ c, msg16_at4 m ρ c]
  rfl

/-- The second relation's aggregate: the scatter-add of the second kernel's message column. -/
theorem entry2_aggi (c : Dev nD) :
    V5 m ρ c main_v25
      = Cert.Forms.aggregated (F := Ideal) (m ((c : Thread nD τ).loc main_arg15)) (W4 m ρ c (Proc.devRef .tc main_v19)) := by
  show StableHlo.after hostOps2 (W4 m ρ c) (Proc.devRef .tc main_v25) = _
  after_results
  rw [arg15_at4 m ρ c]
  rfl

end Cert.Boundary

end
-- ==== Proof.EdgePoint16.lean ====
/-
  One edge's message, read at a row, on both sides.

  Inside a block of 5000 edges the kernel forms, for the block's row `p`,
      Σ_f xsrc[p,f] · ( Σ_k ea[p,k] · wT[k,f] + b[0,f] ),
  its matrix product starting from a zero accumulator and its narrowing of the operands to bf16 being the identity on
  extended reals. The reference forms the same double sum for the edge `e` out of the whole arrays, its row sum
  starting from the constant zero. Both are read here as that plain sum; `EdgeArray16` identifies the block's
  entries with the arrays' entries at `e = 5000·t + p`.
-/
import proofs.«142884_j53798760349842_1_alg».proof.Proof.Forms
import proofs.«142884_j53798760349842_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.EdgePoint16

open Idealize.ShloMosaic ValueIdx

section Kernel
open Cert.KernelIdeal Cert.KernelIdeal.Gen

/-- The left operand's index of the block's matrix product keeps the output's row on axis 0 … -/
theorem lhs_pay_0 (i : S5000x16.Idx) (q : dot_S5000x8_S8x16_S5000x16_1_0_0_1_n_n.contr.Idx) :
    (dot_S5000x8_S8x16_S5000x16_1_0_0_1_n_n.lhsIdx i q 0).val = (i 0).val := by
  unfold DotDims.lhsIdx
  rw [dif_neg (show ¬(0 : Fin S5000x8.rank) ∈ dot_S5000x8_S8x16_S5000x16_1_0_0_1_n_n.lhsBatch by decide), dif_pos (show (0 : Fin S5000x8.rank) ∈ dot_S5000x8_S8x16_S5000x16_1_0_0_1_n_n.lhsNonContracting by decide)]
  rfl
/-- … and carries the contraction's coordinate on axis 1. -/
theorem lhs_pay_1 (i : S5000x16.Idx) (q : dot_S5000x8_S8x16_S5000x16_1_0_0_1_n_n.contr.Idx) :
    (dot_S5000x8_S8x16_S5000x16_1_0_0_1_n_n.lhsIdx i q 1).val = (q ⟨0, by decide⟩).val :=
  dot_S5000x8_S8x16_S5000x16_1_0_0_1_n_n.lhsIdx_val_of_single rfl i q
/-- The right operand's index carries the contraction's coordinate on axis 0 … -/
theorem rhs_pay_0 (i : S5000x16.Idx) (q : dot_S5000x8_S8x16_S5000x16_1_0_0_1_n_n.contr.Idx) :
    (dot_S5000x8_S8x16_S5000x16_1_0_0_1_n_n.rhsIdx i q 0).val = (q ⟨0, by decide⟩).val :=
  dot_S5000x8_S8x16_S5000x16_1_0_0_1_n_n.rhsIdx_val_of_single rfl i q
/-- … and keeps the output's column on axis 1. -/
theorem rhs_pay_1 (i : S5000x16.Idx) (q : dot_S5000x8_S8x16_S5000x16_1_0_0_1_n_n.contr.Idx) :
    (dot_S5000x8_S8x16_S5000x16_1_0_0_1_n_n.rhsIdx i q 1).val = (i 1).val := by
  unfold DotDims.rhsIdx
  rw [dif_neg (show ¬(1 : Fin S8x16.rank) ∈ dot_S5000x8_S8x16_S5000x16_1_0_0_1_n_n.rhsBatch by decide), dif_pos (show (1 : Fin S8x16.rank) ∈ dot_S5000x8_S8x16_S5000x16_1_0_0_1_n_n.rhsNonContracting by decide)]
  rfl

/-- The block's matrix product into the zero accumulator, at row `p` and column `f`: the sum over the 8 attributes. -/
theorem matmul_pay_apply {φ₁ φ₂ : FTy} (a : FVec Ideal S5000x8 φ₁) (w : FVec Ideal S8x16 φ₂) (p : Fin 5000) (f : Fin 16) :
    matmul dot_S5000x8_S8x16_S5000x16_1_0_0_1_n_n none a w (constant (F := Ideal) S5000x16 .f32 0x00000000#32) (ix2 p f)
      = ∑ k : Fin 8, a (ix2 p k) * w (ix2 k f) := by
  simp only [matmul]
  rw [Ideal.matmul_constant_zero_apply, ← Equiv.sum_comp (ValueIdx.contrEquiv1 dot_S5000x8_S8x16_S5000x16_1_0_0_1_n_n 8 rfl rfl).symm]
  refine Finset.sum_congr rfl fun k _ => ?_
  have hk := ValueIdx.contrEquiv1_symm_val dot_S5000x8_S8x16_S5000x16_1_0_0_1_n_n 8 rfl rfl k
  have el : dot_S5000x8_S8x16_S5000x16_1_0_0_1_n_n.lhsIdx (ix2 p f) ((ValueIdx.contrEquiv1 dot_S5000x8_S8x16_S5000x16_1_0_0_1_n_n 8 rfl rfl).symm k) = ix2 p k := funext fun a => Fin.ext (by
    match a with
    | ⟨0, _⟩ => exact lhs_pay_0 _ _
    | ⟨1, _⟩ => exact (lhs_pay_1 _ _).trans hk)
  have er : dot_S5000x8_S8x16_S5000x16_1_0_0_1_n_n.rhsIdx (ix2 p f) ((ValueIdx.contrEquiv1 dot_S5000x8_S8x16_S5000x16_1_0_0_1_n_n 8 rfl rfl).symm k) = ix2 k f := funext fun a => Fin.ext (by
    match a with
    | ⟨0, _⟩ => exact (rhs_pay_0 _ _).trans hk
    | ⟨1, _⟩ => exact rhs_pay_1 _ _)
  rw [el, er]

/-- The lane sum of a block of 5000 rows of 16, at row `p`: the sum over the row's 16 entries. -/
theorem laneSum_pay_apply (src : FVec Ideal S5000x16 .f32) (hφ : FKind.Formats .f32)
    (hacc : (0x00000000#32 : BitVec 32) = FKind.add.neutral .f32 hφ) (p : Fin 5000) :
    multiReduction (F := Ideal) .add [1] S5000 src 0x00000000#32 reduces_S5000x16_S5000 hφ hacc (ix1 p)
      = ∑ f : Fin 16, src (ix2 p f) := by
  refine (Ideal.multiReduction_add_single src 0x00000000#32 reduces_S5000x16_S5000 hφ hacc (ix1 p)).trans ?_
  refine Finset.sum_congr rfl fun f _ => congrArg src (funext fun a => Fin.ext (by
    match a with
    | ⟨0, _⟩ => rfl
    | ⟨1, _⟩ => rfl))

/-- The bias row spread over the block's 5000 rows, at row `p` and column `f`: the row's entry `f`. -/
theorem bias_pay_apply (x6 : FVec Ideal S1x16 .f32) (p : Fin 5000) (f : Fin 16) :
    broadcastTo S5000x16 x6 broadcasts_S1x16_S5000x16 (ix2 p f) = x6 (ix2 (0 : Fin 1) f) :=
  broadcastTo_apply x6 broadcasts_S1x16_S5000x16 (ix2 p f) (ix2 (0 : Fin 1) f) (fun a => match a with
    | ⟨0, _⟩ => by show 0 = if (1 : Nat) = 1 then 0 else p.val; rw [if_pos rfl]
    | ⟨1, _⟩ => by show f.val = if (16 : Nat) = 1 then 0 else f.val; rw [if_neg (by decide)])

/-- The column of 5000 sums viewed as 5000 rows of one entry, at row `p`: the sum of row `p`. -/
theorem column_pay_apply (v : FVec Ideal S5000 .f32) (p : Fin 5000) :
    shapeCast S5000x1 v shapeCasts_S5000_S5000x1 (ix2 p (0 : Fin 1)) = v (ix1 p) :=
  shapeCast_apply v shapeCasts_S5000_S5000x1 (ix2 p (0 : Fin 1)) (ix1 p) (by
    rw [Shape.rowMajor_val_one, Shape.rowMajor_val_two]
    show p.val = p.val * 1 + 0
    omega)

/-- The block payload at row `p`: the double sum over the block's own entries. -/
theorem pay_apply (x0 : Vec Ideal S5000x8 .f32) (x2 : Vec Ideal S8x16 .f32) (x6 : Vec Ideal S1x16 .f32)
    (x10 : Vec Ideal S5000x16 .f32) (p : Fin 5000) :
    k0_pay1 (F := Ideal) x0 x2 x6 x10 (ix2 p (0 : Fin 1))
      = ∑ f : Fin 16, x10 (ix2 p f) * ((∑ k : Fin 8, x0 (ix2 p k) * x2 (ix2 k f)) + x6 (ix2 (0 : Fin 1) f)) := by
  unfold k0_pay1
  refine (column_pay_apply _ p).trans ?_
  refine (laneSum_pay_apply _ _ _ p).trans ?_
  refine Finset.sum_congr rfl fun f _ => ?_
  rw [mulf_apply, addf_apply, matmul_pay_apply, bias_pay_apply]
  simp only [shapeCast_self, truncf_apply]

end Kernel

section Reference
open Cert.ReferenceIdeal Cert.ReferenceIdeal.Gen

/-- The left operand's index of the reference's matrix product keeps the output's row on axis 0 … -/
theorem lhs_form_0 (i : S2000000x16.Idx) (q : dot_S2000000x8_S8x16_S2000000x16_1_0_0_1_n_n.contr.Idx) :
    (dot_S2000000x8_S8x16_S2000000x16_1_0_0_1_n_n.lhsIdx i q 0).val = (i 0).val := by
  unfold DotDims.lhsIdx
  rw [dif_neg (show ¬(0 : Fin S2000000x8.rank) ∈ dot_S2000000x8_S8x16_S2000000x16_1_0_0_1_n_n.lhsBatch by decide), dif_pos (show (0 : Fin S2000000x8.rank) ∈ dot_S2000000x8_S8x16_S2000000x16_1_0_0_1_n_n.lhsNonContracting by decide)]
  rfl
/-- … and carries the contraction's coordinate on axis 1. -/
theorem lhs_form_1 (i : S2000000x16.Idx) (q : dot_S2000000x8_S8x16_S2000000x16_1_0_0_1_n_n.contr.Idx) :
    (dot_S2000000x8_S8x16_S2000000x16_1_0_0_1_n_n.lhsIdx i q 1).val = (q ⟨0, by decide⟩).val :=
  dot_S2000000x8_S8x16_S2000000x16_1_0_0_1_n_n.lhsIdx_val_of_single rfl i q
/-- The right operand's index carries the contraction's coordinate on axis 0 … -/
theorem rhs_form_0 (i : S2000000x16.Idx) (q : dot_S2000000x8_S8x16_S2000000x16_1_0_0_1_n_n.contr.Idx) :
    (dot_S2000000x8_S8x16_S2000000x16_1_0_0_1_n_n.rhsIdx i q 0).val = (q ⟨0, by decide⟩).val :=
  dot_S2000000x8_S8x16_S2000000x16_1_0_0_1_n_n.rhsIdx_val_of_single rfl i q
/-- … and keeps the output's column on axis 1. -/
theorem rhs_form_1 (i : S2000000x16.Idx) (q : dot_S2000000x8_S8x16_S2000000x16_1_0_0_1_n_n.contr.Idx) :
    (dot_S2000000x8_S8x16_S2000000x16_1_0_0_1_n_n.rhsIdx i q 1).val = (i 1).val := by
  unfold DotDims.rhsIdx
  rw [dif_neg (show ¬(1 : Fin S8x16.rank) ∈ dot_S2000000x8_S8x16_S2000000x16_1_0_0_1_n_n.rhsBatch by decide), dif_pos (show (1 : Fin S8x16.rank) ∈ dot_S2000000x8_S8x16_S2000000x16_1_0_0_1_n_n.rhsNonContracting by decide)]
  rfl

/-- The reference's matrix product at edge `e` and column `f`: the sum over the 8 attributes. -/
theorem dot_form_apply (ea : FVec Ideal S2000000x8 .f32) (wT : FVec Ideal S8x16 .f32) (e : Fin 2000000) (f : Fin 16) :
    Host.dotGeneral (F := Ideal) dot_S2000000x8_S8x16_S2000000x16_1_0_0_1_n_n none ea wT (ix2 e f)
      = ∑ k : Fin 8, ea (ix2 e k) * wT (ix2 k f) := by
  simp only [Host.dotGeneral]
  rw [Ideal.dotGeneral_apply, ← Equiv.sum_comp (ValueIdx.contrEquiv1 dot_S2000000x8_S8x16_S2000000x16_1_0_0_1_n_n 8 rfl rfl).symm]
  refine Finset.sum_congr rfl fun k _ => ?_
  have hk := ValueIdx.contrEquiv1_symm_val dot_S2000000x8_S8x16_S2000000x16_1_0_0_1_n_n 8 rfl rfl k
  have el : dot_S2000000x8_S8x16_S2000000x16_1_0_0_1_n_n.lhsIdx (ix2 e f) ((ValueIdx.contrEquiv1 dot_S2000000x8_S8x16_S2000000x16_1_0_0_1_n_n 8 rfl rfl).symm k) = ix2 e k := funext fun a => Fin.ext (by
    match a with
    | ⟨0, _⟩ => exact lhs_form_0 _ _
    | ⟨1, _⟩ => exact (lhs_form_1 _ _).trans hk)
  have er : dot_S2000000x8_S8x16_S2000000x16_1_0_0_1_n_n.rhsIdx (ix2 e f) ((ValueIdx.contrEquiv1 dot_S2000000x8_S8x16_S2000000x16_1_0_0_1_n_n 8 rfl rfl).symm k) = ix2 k f := funext fun a => Fin.ext (by
    match a with
    | ⟨0, _⟩ => exact (rhs_form_0 _ _).trans hk
    | ⟨1, _⟩ => exact rhs_form_1 _ _)
  rw [el, er]

/-- The reference's row sum from the constant zero, at edge `e`: the sum over the row's 16 entries. -/
theorem rowSum_form_apply (y : FVec Ideal S2000000x16 .f32) (e : Fin 2000000) :
    Host.reduceAdd (F := Ideal) y (constant (F := Ideal) S_ .f32 0x00000000#32) reducesTo_S2000000x16_S2000000_d1 h_S_ (ix1 e)
      = ∑ f : Fin 16, y (ix2 e f) := by
  simp only [Host.reduceAdd, Ideal.hostReduceAdd_def]
  rw [Ideal.hostReduceAdd_single reducesTo_S2000000x16_S2000000_d1 (by decide)]
  rw [constant_apply, Ideal.ofBits_zero_f32, zero_add]
  refine Finset.sum_congr rfl fun f _ => congrArg y (funext fun a => Fin.ext (by
    match a with
    | ⟨0, _⟩ => rfl
    | ⟨1, _⟩ => rfl))

/-- The bias row spread over the 2000000 edges, at edge `e` and column `f`: the row's entry `f`. -/
theorem bias_form_apply (b : FVec Ideal S1x16 .f32) (e : Fin 2000000) (f : Fin 16) :
    broadcastInDim S2000000x16 ![0, 1] bcast_S1x16_S2000000x16_0_1 b (ix2 e f) = b (ix2 (0 : Fin 1) f) :=
  broadcastInDim_apply _ bcast_S1x16_S2000000x16_0_1 b (ix2 e f) (ix2 (0 : Fin 1) f) (fun a => match a with
    | ⟨0, _⟩ => by show 0 = if (1 : Nat) = 1 then 0 else e.val; rw [if_pos rfl]
    | ⟨1, _⟩ => by show f.val = if (16 : Nat) = 1 then 0 else f.val; rw [if_neg (by decide)])

/-- The 2000000 row sums set as a column of one entry a row, at edge `e`: the sum of row `e`. -/
theorem column_form_apply (v : FVec Ideal S2000000 .f32) (e : Fin 2000000) :
    broadcastInDim S2000000x1 ![0] bcast_S2000000_S2000000x1_0 v (ix2 e (0 : Fin 1)) = v (ix1 e) :=
  broadcastInDim_apply _ bcast_S2000000_S2000000x1_0 v (ix2 e (0 : Fin 1)) (ix1 e) (fun a => match a with
    | ⟨0, _⟩ => by show e.val = if (2000000 : Nat) = 1 then 0 else e.val; rw [if_neg (by decide)])

/-- The reference's message column at edge `e`: the same double sum over the whole arrays. -/
theorem form_apply (ea : FVec Ideal S2000000x8 .f32) (xg : FVec Ideal S2000000x16 .f32) (wT : FVec Ideal S8x16 .f32)
    (b : FVec Ideal S1x16 .f32) (e : Fin 2000000) :
    Cert.Forms.edgeMsg16 (F := Ideal) ea xg wT b (ix2 e (0 : Fin 1))
      = ∑ f : Fin 16, xg (ix2 e f) * ((∑ k : Fin 8, ea (ix2 e k) * wT (ix2 k f)) + b (ix2 (0 : Fin 1) f)) := by
  unfold Cert.Forms.edgeMsg16
  refine (column_form_apply _ e).trans ?_
  refine (rowSum_form_apply _ e).trans ?_
  refine Finset.sum_congr rfl fun f _ => ?_
  rw [mulf_apply, addf_apply, dot_form_apply, bias_form_apply]

end Reference

end Cert.EdgePoint16

end
-- ==== Proof.EdgeArray16.lean ====
/-
  The first message kernel's output array is the reference's message column of the arrays it was launched on.

  Grid point `t` of 400 stages rows `5000·t … 5000·t + 4999` of the edge attributes and of the gathered source
  features, the whole 8×16 weight and the whole 1×16 bias, and writes back rows `5000·t …` of the output column.
  So row `p` of what point `t` writes is the message of edge `e = 5000·t + p`, and the 400 blocks tile the
  2,000,000 rows.
-/
import proofs.«142884_j53798760349842_1_alg».proof.Proof.EdgePoint16
import proofs.«142884_j53798760349842_1_alg».proof.Proof.Gen.KernelIdeal.Frame

set_option maxRecDepth 16384

noncomputable section

namespace Cert.EdgeArray16

open Idealize.ShloMosaic Idealize.ShloMosaic.TcCoe ValueIdx
open Idealize.SL.Sem
open Cert.KernelIdeal Cert.KernelIdeal.Gen

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- The printed index maps at each of the 400 grid points: the edge attributes, the gathered source
    features and the output column are at row block `t`; the weight and the bias are at block (0, 0) throughout. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point is below 400. -/
theorem point_lt (t : Fin cfg0.N) : t.val < 400 := lt_of_lt_of_eq t.isLt N_0

/-- One row of a block against one row of the arrays: if block row `p` holds edge `e`'s attributes and source
    features, and the block's weight and bias are the arrays', the block's payload at row `p` is edge `e`'s message. -/
theorem row_eq (x0 : Vec Ideal S5000x8 .f32) (x1 : Vec Ideal S5000x16 .f32) (x2 : Vec Ideal S8x16 .f32)
    (x3 : Vec Ideal S1x16 .f32) (ea : FVec Ideal S2000000x8 .f32) (xg : FVec Ideal S2000000x16 .f32)
    (wT : FVec Ideal S8x16 .f32) (b : FVec Ideal S1x16 .f32) (j : S5000x1.Idx) (i : S2000000x1.Idx)
    (p : Fin 5000) (e : Fin 2000000) (hj : (j 0).val = p.val) (hi : (i 0).val = e.val)
    (h0 : ∀ k : Fin 8, x0 (ix2 p k) = ea (ix2 e k)) (h1 : ∀ f : Fin 16, x1 (ix2 p f) = xg (ix2 e f))
    (h2 : x2 = wT) (h3 : x3 = b) :
    k0_pay1 (F := Ideal) x0 x2 x3 x1 j = Cert.Forms.edgeMsg16 (F := Ideal) ea xg wT b i := by
  have ej : j = ix2 p (0 : Fin 1) := by
    funext a; apply Fin.ext
    match a with
    | ⟨0, _⟩ => exact hj
    | ⟨1, _⟩ => show (j 1).val = 0; have hq : (j 1).val < 1 := (j 1).isLt; omega
  have ei : i = ix2 e (0 : Fin 1) := by
    funext a; apply Fin.ext
    match a with
    | ⟨0, _⟩ => exact hi
    | ⟨1, _⟩ => show (i 1).val = 0; have hq : (i 1).val < 1 := (i 1).isLt; omega
  subst h2 h3
  rw [ej, ei]
  refine (Cert.EdgePoint16.pay_apply x0 x2 x3 x1 p).trans
    ((Finset.sum_congr rfl fun f _ => ?_).trans (Cert.EdgePoint16.form_apply ea xg x2 x3 e).symm)
  rw [h1 f, Finset.sum_congr rfl fun k _ => by rw [h0 k]]

/-- Row `p` of point `t`'s block of the edge attributes is row `5000·t + p` of the array. -/
theorem attr_block (c : Dev nD) (t : Fin cfg0.N) (p : Fin 5000) (e : Fin 2000000) (he : e.val = 5000 * t.val + p.val)
    (k : Fin 8) : (iblk0 V c 0 t : Vec Ideal S5000x8 .f32) (ix2 p k) = (V c main_arg2 : FVec Ideal S2000000x8 .f32) (ix2 e k) := by
  obtain ⟨e0, e1, -⟩ := block_index t
  unfold iblk0
  rw [View.read_apply]
  show V c main_arg2 (((cfg0.win 0).blk t).view.emb (ix2 p k)) = V c main_arg2 (ix2 e k)
  refine congrArg _ (funext fun a => Fin.ext ?_)
  match a with
  | ⟨0, _⟩ => show win0_0.index t (0 : Fin 2) * 5000 + 1 * p.val = e.val; omega
  | ⟨1, _⟩ => show win0_0.index t (1 : Fin 2) * 8 + 1 * k.val = k.val; omega

/-- Row `p` of point `t`'s block of the gathered source features is row `5000·t + p` of the array. -/
theorem src_block (c : Dev nD) (t : Fin cfg0.N) (p : Fin 5000) (e : Fin 2000000) (he : e.val = 5000 * t.val + p.val)
    (f : Fin 16) : (iblk0 V c 1 t : Vec Ideal S5000x16 .f32) (ix2 p f) = (V c main_v6 : FVec Ideal S2000000x16 .f32) (ix2 e f) := by
  obtain ⟨-, -, e0, e1, -⟩ := block_index t
  unfold iblk0
  rw [View.read_apply]
  show V c main_v6 (((cfg0.win 1).blk t).view.emb (ix2 p f)) = V c main_v6 (ix2 e f)
  refine congrArg _ (funext fun a => Fin.ext ?_)
  match a with
  | ⟨0, _⟩ => show win0_1.index t (0 : Fin 2) * 5000 + 1 * p.val = e.val; omega
  | ⟨1, _⟩ => show win0_1.index t (1 : Fin 2) * 16 + 1 * f.val = f.val; omega

/-- Every point's block of the weight is the whole weight. -/
theorem weight_block (c : Dev nD) (t : Fin cfg0.N) :
    (iblk0 V c 2 t : Vec Ideal S8x16 .f32) = (V c main_v14 : FVec Ideal S8x16 .f32) := by
  obtain ⟨-, -, -, -, e0, e1, -⟩ := block_index t
  unfold iblk0
  funext y
  rw [View.read_apply]
  show V c main_v14 (((cfg0.win 2).blk t).view.emb y) = V c main_v14 y
  refine congrArg _ (funext fun a => Fin.ext ?_)
  match a with
  | ⟨0, _⟩ => show win0_2.index t (0 : Fin 2) * 8 + 1 * (y 0).val = (y 0).val; omega
  | ⟨1, _⟩ => show win0_2.index t (1 : Fin 2) * 16 + 1 * (y 1).val = (y 1).val; omega

/-- Every point's block of the bias is the whole bias. -/
theorem bias_block (c : Dev nD) (t : Fin cfg0.N) :
    (iblk0 V c 3 t : Vec Ideal S1x16 .f32) = (V c main_v15 : FVec Ideal S1x16 .f32) := by
  obtain ⟨-, -, -, -, -, -, e0, e1, -⟩ := block_index t
  unfold iblk0
  funext y
  rw [View.read_apply]
  show V c main_v15 (((cfg0.win 3).blk t).view.emb y) = V c main_v15 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 16 + 1 * (y 1).val = (y 1).val; omega

/-- A block of 5000 rows against the column of 2,000,000 rows: if every row `p` of `X` is row `5000·t + p` of `G`,
    then `X` is point `t`'s block of `G`. This holds for any `X` and any `G`. -/
theorem block_of_rows (t : Fin cfg0.N) (X : Vec Ideal S5000x1 .f32) (G : FVec Ideal S2000000x1 .f32)
    (h : ∀ (j : S5000x1.Idx) (i : S2000000x1.Idx), (i 0).val = 5000 * t.val + (j 0).val → X j = G i) :
    (cfg0.win 4).cut (grid0.coords t) X = ((cfg0.win 4).blk t).view.read (Elt Ideal) G := by
  obtain ⟨-, -, -, -, -, -, -, -, e0, e1⟩ := block_index t
  funext j
  show X (win0_4.xinj (grid0.coords t) j) = G (((cfg0.win 4).blk t).view.emb j)
  refine h _ _ ?_
  show win0_4.index t (0 : Fin 2) * 5000 + 1 * (j 0).val = 5000 * t.val + (j 0).val
  omega

/-- What point `t` writes back is block `t` of the message column of the arrays the region was entered with. -/
theorem flushed_eq (c : Dev nD) (t : Fin cfg0.N) :
    (dat0 (F := Ideal) V c).flushed 4 t = ((cfg0.win 4).blk t).view.read (Elt Ideal)
      (Cert.Forms.edgeMsg16 (F := Ideal) (V c main_arg2) (V c main_v6) (V c main_v14) (V c main_v15)) := by
  show (cfg0.win 4).cut (grid0.coords t) ((dat0 (F := Ideal) V c).after 4 t) = _
  rw [after0_4]
  unfold out0_4
  rw [View.canon_unit_zero zero_offsets]
  simp only [View.ld_unit_zero (S := S5000x8) zero_offsets, View.ld_unit_zero (S := S5000x16) zero_offsets,
    View.ld_unit_zero (S := S8x16) zero_offsets, View.ld_unit_zero (S := S1x16) zero_offsets]
  refine block_of_rows t
    (k0_pay1 (F := Ideal) (iblk0 V c 0 t) (iblk0 V c 2 t) (iblk0 V c 3 t) (iblk0 V c 1 t))
    (Cert.Forms.edgeMsg16 (F := Ideal) (V c main_arg2) (V c main_v6) (V c main_v14) (V c main_v15))
    fun j i hi => ?_
  exact row_eq (iblk0 V c 0 t) (iblk0 V c 1 t) (iblk0 V c 2 t) (iblk0 V c 3 t) (V c main_arg2) (V c main_v6)
    (V c main_v14) (V c main_v15) j i ⟨(j 0).val, (j 0).isLt⟩ ⟨(i 0).val, (i 0).isLt⟩ rfl rfl
    (fun k => attr_block V c t _ _ hi k) (fun f => src_block V c t _ _ hi f) (weight_block V c t) (bias_block V c t)

/-- An index of the output column is in point `t`'s block iff each coordinate is in the block's range on its axis. -/
theorem mem_block (t : Fin cfg0.N) (i : S2000000x1.Idx) :
    i ∈ ((cfg0.win 4).blk t).view.set ↔ ∀ a : Fin 2, win0_4.index t a * S5000x1.size a ≤ (i a).val
      ∧ (i a).val < win0_4.index t a * S5000x1.size a + S5000x1.size a := by
  show i ∈ ((View.whole main_v16).slice (win0_4.rect t)).set ↔ _
  rw [View.set_slice_whole, Rect.mem_set_unit]
  exact Iff.rfl

/-- The 400 blocks tile the 2,000,000 rows: row `r` is in the block of point `r / 5000`. -/
theorem covered (i : S2000000x1.Idx) :
    ∃ t : Fin cfg0.N, (cfg0.win 4).flush t = true ∧ i ∈ ((cfg0.win 4).blk t).view.set := by
  have hi0 : (i 0).val < 2000000 := (i 0).isLt
  have hi1 : (i 1).val < 1 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, -, -, e0, e1⟩ := block_index t
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 1 ≤ (i 1).val ∧ (i 1).val < win0_4.index t (1 : Fin 2) * 1 + 1
    omega

/-- Whatever the region finds in its four input arrays, its output array ends at their message column. -/
theorem final (c : Dev nD) :
    (dat0 (F := Ideal) V c).arrAt 4 cfg0.N
      = Cert.Forms.edgeMsg16 (F := Ideal) (V c main_arg2) (V c main_v6) (V c main_v14) (V c main_v15) :=
  (dat0 (F := Ideal) V c).arrAt_eq_of_cover 4 _ (fun t _ => flushed_eq V c t) covered

end Cert.EdgeArray16

end
-- ==== Proof.EdgePoint32.lean ====
/-
  One edge's message, read at a row, on both sides.

  Inside a block of 5000 edges the kernel forms, for the block's row `p`,
      Σ_f xsrc[p,f] · ( Σ_k ea[p,k] · wT[k,f] + b[0,f] ),
  its matrix product starting from a zero accumulator and its narrowing of the operands to bf16 being the identity on
  extended reals. The reference forms the same double sum for the edge `e` out of the whole arrays, its row sum
  starting from the constant zero. Both are read here as that plain sum; `EdgeArray32` identifies the block's
  entries with the arrays' entries at `e = 5000·t + p`.
-/
import proofs.«142884_j53798760349842_1_alg».proof.Proof.Forms
import proofs.«142884_j53798760349842_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.EdgePoint32

open Idealize.ShloMosaic ValueIdx

section Kernel
open Cert.KernelIdeal Cert.KernelIdeal.Gen

/-- The left operand's index of the block's matrix product keeps the output's row on axis 0 … -/
theorem lhs_pay_0 (i : S5000x32.Idx) (q : dot_S5000x8_S8x32_S5000x32_1_0_0_1_n_n.contr.Idx) :
    (dot_S5000x8_S8x32_S5000x32_1_0_0_1_n_n.lhsIdx i q 0).val = (i 0).val := by
  unfold DotDims.lhsIdx
  rw [dif_neg (show ¬(0 : Fin S5000x8.rank) ∈ dot_S5000x8_S8x32_S5000x32_1_0_0_1_n_n.lhsBatch by decide), dif_pos (show (0 : Fin S5000x8.rank) ∈ dot_S5000x8_S8x32_S5000x32_1_0_0_1_n_n.lhsNonContracting by decide)]
  rfl
/-- … and carries the contraction's coordinate on axis 1. -/
theorem lhs_pay_1 (i : S5000x32.Idx) (q : dot_S5000x8_S8x32_S5000x32_1_0_0_1_n_n.contr.Idx) :
    (dot_S5000x8_S8x32_S5000x32_1_0_0_1_n_n.lhsIdx i q 1).val = (q ⟨0, by decide⟩).val :=
  dot_S5000x8_S8x32_S5000x32_1_0_0_1_n_n.lhsIdx_val_of_single rfl i q
/-- The right operand's index carries the contraction's coordinate on axis 0 … -/
theorem rhs_pay_0 (i : S5000x32.Idx) (q : dot_S5000x8_S8x32_S5000x32_1_0_0_1_n_n.contr.Idx) :
    (dot_S5000x8_S8x32_S5000x32_1_0_0_1_n_n.rhsIdx i q 0).val = (q ⟨0, by decide⟩).val :=
  dot_S5000x8_S8x32_S5000x32_1_0_0_1_n_n.rhsIdx_val_of_single rfl i q
/-- … and keeps the output's column on axis 1. -/
theorem rhs_pay_1 (i : S5000x32.Idx) (q : dot_S5000x8_S8x32_S5000x32_1_0_0_1_n_n.contr.Idx) :
    (dot_S5000x8_S8x32_S5000x32_1_0_0_1_n_n.rhsIdx i q 1).val = (i 1).val := by
  unfold DotDims.rhsIdx
  rw [dif_neg (show ¬(1 : Fin S8x32.rank) ∈ dot_S5000x8_S8x32_S5000x32_1_0_0_1_n_n.rhsBatch by decide), dif_pos (show (1 : Fin S8x32.rank) ∈ dot_S5000x8_S8x32_S5000x32_1_0_0_1_n_n.rhsNonContracting by decide)]
  rfl

/-- The block's matrix product into the zero accumulator, at row `p` and column `f`: the sum over the 8 attributes. -/
theorem matmul_pay_apply {φ₁ φ₂ : FTy} (a : FVec Ideal S5000x8 φ₁) (w : FVec Ideal S8x32 φ₂) (p : Fin 5000) (f : Fin 32) :
    matmul dot_S5000x8_S8x32_S5000x32_1_0_0_1_n_n none a w (constant (F := Ideal) S5000x32 .f32 0x00000000#32) (ix2 p f)
      = ∑ k : Fin 8, a (ix2 p k) * w (ix2 k f) := by
  simp only [matmul]
  rw [Ideal.matmul_constant_zero_apply, ← Equiv.sum_comp (ValueIdx.contrEquiv1 dot_S5000x8_S8x32_S5000x32_1_0_0_1_n_n 8 rfl rfl).symm]
  refine Finset.sum_congr rfl fun k _ => ?_
  have hk := ValueIdx.contrEquiv1_symm_val dot_S5000x8_S8x32_S5000x32_1_0_0_1_n_n 8 rfl rfl k
  have el : dot_S5000x8_S8x32_S5000x32_1_0_0_1_n_n.lhsIdx (ix2 p f) ((ValueIdx.contrEquiv1 dot_S5000x8_S8x32_S5000x32_1_0_0_1_n_n 8 rfl rfl).symm k) = ix2 p k := funext fun a => Fin.ext (by
    match a with
    | ⟨0, _⟩ => exact lhs_pay_0 _ _
    | ⟨1, _⟩ => exact (lhs_pay_1 _ _).trans hk)
  have er : dot_S5000x8_S8x32_S5000x32_1_0_0_1_n_n.rhsIdx (ix2 p f) ((ValueIdx.contrEquiv1 dot_S5000x8_S8x32_S5000x32_1_0_0_1_n_n 8 rfl rfl).symm k) = ix2 k f := funext fun a => Fin.ext (by
    match a with
    | ⟨0, _⟩ => exact (rhs_pay_0 _ _).trans hk
    | ⟨1, _⟩ => exact rhs_pay_1 _ _)
  rw [el, er]

/-- The lane sum of a block of 5000 rows of 32, at row `p`: the sum over the row's 32 entries. -/
theorem laneSum_pay_apply (src : FVec Ideal S5000x32 .f32) (hφ : FKind.Formats .f32)
    (hacc : (0x00000000#32 : BitVec 32) = FKind.add.neutral .f32 hφ) (p : Fin 5000) :
    multiReduction (F := Ideal) .add [1] S5000 src 0x00000000#32 reduces_S5000x32_S5000 hφ hacc (ix1 p)
      = ∑ f : Fin 32, src (ix2 p f) := by
  refine (Ideal.multiReduction_add_single src 0x00000000#32 reduces_S5000x32_S5000 hφ hacc (ix1 p)).trans ?_
  refine Finset.sum_congr rfl fun f _ => congrArg src (funext fun a => Fin.ext (by
    match a with
    | ⟨0, _⟩ => rfl
    | ⟨1, _⟩ => rfl))

/-- The bias row spread over the block's 5000 rows, at row `p` and column `f`: the row's entry `f`. -/
theorem bias_pay_apply (x6 : FVec Ideal S1x32 .f32) (p : Fin 5000) (f : Fin 32) :
    broadcastTo S5000x32 x6 broadcasts_S1x32_S5000x32 (ix2 p f) = x6 (ix2 (0 : Fin 1) f) :=
  broadcastTo_apply x6 broadcasts_S1x32_S5000x32 (ix2 p f) (ix2 (0 : Fin 1) f) (fun a => match a with
    | ⟨0, _⟩ => by show 0 = if (1 : Nat) = 1 then 0 else p.val; rw [if_pos rfl]
    | ⟨1, _⟩ => by show f.val = if (32 : Nat) = 1 then 0 else f.val; rw [if_neg (by decide)])

/-- The column of 5000 sums viewed as 5000 rows of one entry, at row `p`: the sum of row `p`. -/
theorem column_pay_apply (v : FVec Ideal S5000 .f32) (p : Fin 5000) :
    shapeCast S5000x1 v shapeCasts_S5000_S5000x1 (ix2 p (0 : Fin 1)) = v (ix1 p) :=
  shapeCast_apply v shapeCasts_S5000_S5000x1 (ix2 p (0 : Fin 1)) (ix1 p) (by
    rw [Shape.rowMajor_val_one, Shape.rowMajor_val_two]
    show p.val = p.val * 1 + 0
    omega)

/-- The block payload at row `p`: the double sum over the block's own entries. -/
theorem pay_apply (x0 : Vec Ideal S5000x8 .f32) (x2 : Vec Ideal S8x32 .f32) (x6 : Vec Ideal S1x32 .f32)
    (x10 : Vec Ideal S5000x32 .f32) (p : Fin 5000) :
    k1_pay1 (F := Ideal) x0 x2 x6 x10 (ix2 p (0 : Fin 1))
      = ∑ f : Fin 32, x10 (ix2 p f) * ((∑ k : Fin 8, x0 (ix2 p k) * x2 (ix2 k f)) + x6 (ix2 (0 : Fin 1) f)) := by
  unfold k1_pay1
  refine (column_pay_apply _ p).trans ?_
  refine (laneSum_pay_apply _ _ _ p).trans ?_
  refine Finset.sum_congr rfl fun f _ => ?_
  rw [mulf_apply, addf_apply, matmul_pay_apply, bias_pay_apply]
  simp only [shapeCast_self, truncf_apply]

end Kernel

section Reference
open Cert.ReferenceIdeal Cert.ReferenceIdeal.Gen

/-- The left operand's index of the reference's matrix product keeps the output's row on axis 0 … -/
theorem lhs_form_0 (i : S2000000x32.Idx) (q : dot_S2000000x8_S8x32_S2000000x32_1_0_0_1_n_n.contr.Idx) :
    (dot_S2000000x8_S8x32_S2000000x32_1_0_0_1_n_n.lhsIdx i q 0).val = (i 0).val := by
  unfold DotDims.lhsIdx
  rw [dif_neg (show ¬(0 : Fin S2000000x8.rank) ∈ dot_S2000000x8_S8x32_S2000000x32_1_0_0_1_n_n.lhsBatch by decide), dif_pos (show (0 : Fin S2000000x8.rank) ∈ dot_S2000000x8_S8x32_S2000000x32_1_0_0_1_n_n.lhsNonContracting by decide)]
  rfl
/-- … and carries the contraction's coordinate on axis 1. -/
theorem lhs_form_1 (i : S2000000x32.Idx) (q : dot_S2000000x8_S8x32_S2000000x32_1_0_0_1_n_n.contr.Idx) :
    (dot_S2000000x8_S8x32_S2000000x32_1_0_0_1_n_n.lhsIdx i q 1).val = (q ⟨0, by decide⟩).val :=
  dot_S2000000x8_S8x32_S2000000x32_1_0_0_1_n_n.lhsIdx_val_of_single rfl i q
/-- The right operand's index carries the contraction's coordinate on axis 0 … -/
theorem rhs_form_0 (i : S2000000x32.Idx) (q : dot_S2000000x8_S8x32_S2000000x32_1_0_0_1_n_n.contr.Idx) :
    (dot_S2000000x8_S8x32_S2000000x32_1_0_0_1_n_n.rhsIdx i q 0).val = (q ⟨0, by decide⟩).val :=
  dot_S2000000x8_S8x32_S2000000x32_1_0_0_1_n_n.rhsIdx_val_of_single rfl i q
/-- … and keeps the output's column on axis 1. -/
theorem rhs_form_1 (i : S2000000x32.Idx) (q : dot_S2000000x8_S8x32_S2000000x32_1_0_0_1_n_n.contr.Idx) :
    (dot_S2000000x8_S8x32_S2000000x32_1_0_0_1_n_n.rhsIdx i q 1).val = (i 1).val := by
  unfold DotDims.rhsIdx
  rw [dif_neg (show ¬(1 : Fin S8x32.rank) ∈ dot_S2000000x8_S8x32_S2000000x32_1_0_0_1_n_n.rhsBatch by decide), dif_pos (show (1 : Fin S8x32.rank) ∈ dot_S2000000x8_S8x32_S2000000x32_1_0_0_1_n_n.rhsNonContracting by decide)]
  rfl

/-- The reference's matrix product at edge `e` and column `f`: the sum over the 8 attributes. -/
theorem dot_form_apply (ea : FVec Ideal S2000000x8 .f32) (wT : FVec Ideal S8x32 .f32) (e : Fin 2000000) (f : Fin 32) :
    Host.dotGeneral (F := Ideal) dot_S2000000x8_S8x32_S2000000x32_1_0_0_1_n_n none ea wT (ix2 e f)
      = ∑ k : Fin 8, ea (ix2 e k) * wT (ix2 k f) := by
  simp only [Host.dotGeneral]
  rw [Ideal.dotGeneral_apply, ← Equiv.sum_comp (ValueIdx.contrEquiv1 dot_S2000000x8_S8x32_S2000000x32_1_0_0_1_n_n 8 rfl rfl).symm]
  refine Finset.sum_congr rfl fun k _ => ?_
  have hk := ValueIdx.contrEquiv1_symm_val dot_S2000000x8_S8x32_S2000000x32_1_0_0_1_n_n 8 rfl rfl k
  have el : dot_S2000000x8_S8x32_S2000000x32_1_0_0_1_n_n.lhsIdx (ix2 e f) ((ValueIdx.contrEquiv1 dot_S2000000x8_S8x32_S2000000x32_1_0_0_1_n_n 8 rfl rfl).symm k) = ix2 e k := funext fun a => Fin.ext (by
    match a with
    | ⟨0, _⟩ => exact lhs_form_0 _ _
    | ⟨1, _⟩ => exact (lhs_form_1 _ _).trans hk)
  have er : dot_S2000000x8_S8x32_S2000000x32_1_0_0_1_n_n.rhsIdx (ix2 e f) ((ValueIdx.contrEquiv1 dot_S2000000x8_S8x32_S2000000x32_1_0_0_1_n_n 8 rfl rfl).symm k) = ix2 k f := funext fun a => Fin.ext (by
    match a with
    | ⟨0, _⟩ => exact (rhs_form_0 _ _).trans hk
    | ⟨1, _⟩ => exact rhs_form_1 _ _)
  rw [el, er]

/-- The reference's row sum from the constant zero, at edge `e`: the sum over the row's 32 entries. -/
theorem rowSum_form_apply (y : FVec Ideal S2000000x32 .f32) (e : Fin 2000000) :
    Host.reduceAdd (F := Ideal) y (constant (F := Ideal) S_ .f32 0x00000000#32) reducesTo_S2000000x32_S2000000_d1 h_S_ (ix1 e)
      = ∑ f : Fin 32, y (ix2 e f) := by
  simp only [Host.reduceAdd, Ideal.hostReduceAdd_def]
  rw [Ideal.hostReduceAdd_single reducesTo_S2000000x32_S2000000_d1 (by decide)]
  rw [constant_apply, Ideal.ofBits_zero_f32, zero_add]
  refine Finset.sum_congr rfl fun f _ => congrArg y (funext fun a => Fin.ext (by
    match a with
    | ⟨0, _⟩ => rfl
    | ⟨1, _⟩ => rfl))

/-- The bias row spread over the 2000000 edges, at edge `e` and column `f`: the row's entry `f`. -/
theorem bias_form_apply (b : FVec Ideal S1x32 .f32) (e : Fin 2000000) (f : Fin 32) :
    broadcastInDim S2000000x32 ![0, 1] bcast_S1x32_S2000000x32_0_1 b (ix2 e f) = b (ix2 (0 : Fin 1) f) :=
  broadcastInDim_apply _ bcast_S1x32_S2000000x32_0_1 b (ix2 e f) (ix2 (0 : Fin 1) f) (fun a => match a with
    | ⟨0, _⟩ => by show 0 = if (1 : Nat) = 1 then 0 else e.val; rw [if_pos rfl]
    | ⟨1, _⟩ => by show f.val = if (32 : Nat) = 1 then 0 else f.val; rw [if_neg (by decide)])

/-- The 2000000 row sums set as a column of one entry a row, at edge `e`: the sum of row `e`. -/
theorem column_form_apply (v : FVec Ideal S2000000 .f32) (e : Fin 2000000) :
    broadcastInDim S2000000x1 ![0] bcast_S2000000_S2000000x1_0 v (ix2 e (0 : Fin 1)) = v (ix1 e) :=
  broadcastInDim_apply _ bcast_S2000000_S2000000x1_0 v (ix2 e (0 : Fin 1)) (ix1 e) (fun a => match a with
    | ⟨0, _⟩ => by show e.val = if (2000000 : Nat) = 1 then 0 else e.val; rw [if_neg (by decide)])

/-- The reference's message column at edge `e`: the same double sum over the whole arrays. -/
theorem form_apply (ea : FVec Ideal S2000000x8 .f32) (xg : FVec Ideal S2000000x32 .f32) (wT : FVec Ideal S8x32 .f32)
    (b : FVec Ideal S1x32 .f32) (e : Fin 2000000) :
    Cert.Forms.edgeMsg32 (F := Ideal) ea xg wT b (ix2 e (0 : Fin 1))
      = ∑ f : Fin 32, xg (ix2 e f) * ((∑ k : Fin 8, ea (ix2 e k) * wT (ix2 k f)) + b (ix2 (0 : Fin 1) f)) := by
  unfold Cert.Forms.edgeMsg32
  refine (column_form_apply _ e).trans ?_
  refine (rowSum_form_apply _ e).trans ?_
  refine Finset.sum_congr rfl fun f _ => ?_
  rw [mulf_apply, addf_apply, dot_form_apply, bias_form_apply]

end Reference

end Cert.EdgePoint32

end
-- ==== Proof.EdgeArray32.lean ====
/-
  The second message kernel's output array is the reference's message column of the arrays it was launched on.

  Grid point `t` of 400 stages rows `5000·t … 5000·t + 4999` of the edge attributes and of the gathered source
  features, the whole 8×32 weight and the whole 1×32 bias, and writes back rows `5000·t …` of the output column.
  So row `p` of what point `t` writes is the message of edge `e = 5000·t + p`, and the 400 blocks tile the
  2,000,000 rows.
-/
import proofs.«142884_j53798760349842_1_alg».proof.Proof.EdgePoint32
import proofs.«142884_j53798760349842_1_alg».proof.Proof.Gen.KernelIdeal.Frame

set_option maxRecDepth 16384

noncomputable section

namespace Cert.EdgeArray32

open Idealize.ShloMosaic Idealize.ShloMosaic.TcCoe ValueIdx
open Idealize.SL.Sem
open Cert.KernelIdeal Cert.KernelIdeal.Gen

variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- The printed index maps at each of the 400 grid points: the edge attributes, the gathered source
    features and the output column are at row block `t`; the weight and the bias are at block (0, 0) throughout. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point is below 400. -/
theorem point_lt (t : Fin cfg1.N) : t.val < 400 := lt_of_lt_of_eq t.isLt N_1

/-- One row of a block against one row of the arrays: if block row `p` holds edge `e`'s attributes and source
    features, and the block's weight and bias are the arrays', the block's payload at row `p` is edge `e`'s message. -/
theorem row_eq (x0 : Vec Ideal S5000x8 .f32) (x1 : Vec Ideal S5000x32 .f32) (x2 : Vec Ideal S8x32 .f32)
    (x3 : Vec Ideal S1x32 .f32) (ea : FVec Ideal S2000000x8 .f32) (xg : FVec Ideal S2000000x32 .f32)
    (wT : FVec Ideal S8x32 .f32) (b : FVec Ideal S1x32 .f32) (j : S5000x1.Idx) (i : S2000000x1.Idx)
    (p : Fin 5000) (e : Fin 2000000) (hj : (j 0).val = p.val) (hi : (i 0).val = e.val)
    (h0 : ∀ k : Fin 8, x0 (ix2 p k) = ea (ix2 e k)) (h1 : ∀ f : Fin 32, x1 (ix2 p f) = xg (ix2 e f))
    (h2 : x2 = wT) (h3 : x3 = b) :
    k1_pay1 (F := Ideal) x0 x2 x3 x1 j = Cert.Forms.edgeMsg32 (F := Ideal) ea xg wT b i := by
  have ej : j = ix2 p (0 : Fin 1) := by
    funext a; apply Fin.ext
    match a with
    | ⟨0, _⟩ => exact hj
    | ⟨1, _⟩ => show (j 1).val = 0; have hq : (j 1).val < 1 := (j 1).isLt; omega
  have ei : i = ix2 e (0 : Fin 1) := by
    funext a; apply Fin.ext
    match a with
    | ⟨0, _⟩ => exact hi
    | ⟨1, _⟩ => show (i 1).val = 0; have hq : (i 1).val < 1 := (i 1).isLt; omega
  subst h2 h3
  rw [ej, ei]
  refine (Cert.EdgePoint32.pay_apply x0 x2 x3 x1 p).trans
    ((Finset.sum_congr rfl fun f _ => ?_).trans (Cert.EdgePoint32.form_apply ea xg x2 x3 e).symm)
  rw [h1 f, Finset.sum_congr rfl fun k _ => by rw [h0 k]]

/-- Row `p` of point `t`'s block of the edge attributes is row `5000·t + p` of the array. -/
theorem attr_block (c : Dev nD) (t : Fin cfg1.N) (p : Fin 5000) (e : Fin 2000000) (he : e.val = 5000 * t.val + p.val)
    (k : Fin 8) : (iblk1 V c 0 t : Vec Ideal S5000x8 .f32) (ix2 p k) = (V c main_arg3 : FVec Ideal S2000000x8 .f32) (ix2 e k) := by
  obtain ⟨e0, e1, -⟩ := block_index t
  unfold iblk1
  rw [View.read_apply]
  show V c main_arg3 (((cfg1.win 0).blk t).view.emb (ix2 p k)) = V c main_arg3 (ix2 e k)
  refine congrArg _ (funext fun a => Fin.ext ?_)
  match a with
  | ⟨0, _⟩ => show win1_0.index t (0 : Fin 2) * 5000 + 1 * p.val = e.val; omega
  | ⟨1, _⟩ => show win1_0.index t (1 : Fin 2) * 8 + 1 * k.val = k.val; omega

/-- Row `p` of point `t`'s block of the gathered source features is row `5000·t + p` of the array. -/
theorem src_block (c : Dev nD) (t : Fin cfg1.N) (p : Fin 5000) (e : Fin 2000000) (he : e.val = 5000 * t.val + p.val)
    (f : Fin 32) : (iblk1 V c 1 t : Vec Ideal S5000x32 .f32) (ix2 p f) = (V c main_v13 : FVec Ideal S2000000x32 .f32) (ix2 e f) := by
  obtain ⟨-, -, e0, e1, -⟩ := block_index t
  unfold iblk1
  rw [View.read_apply]
  show V c main_v13 (((cfg1.win 1).blk t).view.emb (ix2 p f)) = V c main_v13 (ix2 e f)
  refine congrArg _ (funext fun a => Fin.ext ?_)
  match a with
  | ⟨0, _⟩ => show win1_1.index t (0 : Fin 2) * 5000 + 1 * p.val = e.val; omega
  | ⟨1, _⟩ => show win1_1.index t (1 : Fin 2) * 32 + 1 * f.val = f.val; omega

/-- Every point's block of the weight is the whole weight. -/
theorem weight_block (c : Dev nD) (t : Fin cfg1.N) :
    (iblk1 V c 2 t : Vec Ideal S8x32 .f32) = (V c main_v17 : FVec Ideal S8x32 .f32) := by
  obtain ⟨-, -, -, -, e0, e1, -⟩ := block_index t
  unfold iblk1
  funext y
  rw [View.read_apply]
  show V c main_v17 (((cfg1.win 2).blk t).view.emb y) = V c main_v17 y
  refine congrArg _ (funext fun a => Fin.ext ?_)
  match a with
  | ⟨0, _⟩ => show win1_2.index t (0 : Fin 2) * 8 + 1 * (y 0).val = (y 0).val; omega
  | ⟨1, _⟩ => show win1_2.index t (1 : Fin 2) * 32 + 1 * (y 1).val = (y 1).val; omega

/-- Every point's block of the bias is the whole bias. -/
theorem bias_block (c : Dev nD) (t : Fin cfg1.N) :
    (iblk1 V c 3 t : Vec Ideal S1x32 .f32) = (V c main_v18 : FVec Ideal S1x32 .f32) := by
  obtain ⟨-, -, -, -, -, -, e0, e1, -⟩ := block_index t
  unfold iblk1
  funext y
  rw [View.read_apply]
  show V c main_v18 (((cfg1.win 3).blk t).view.emb y) = V c main_v18 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 32 + 1 * (y 1).val = (y 1).val; omega

/-- A block of 5000 rows against the column of 2,000,000 rows: if every row `p` of `X` is row `5000·t + p` of `G`,
    then `X` is point `t`'s block of `G`. This holds for any `X` and any `G`. -/
theorem block_of_rows (t : Fin cfg1.N) (X : Vec Ideal S5000x1 .f32) (G : FVec Ideal S2000000x1 .f32)
    (h : ∀ (j : S5000x1.Idx) (i : S2000000x1.Idx), (i 0).val = 5000 * t.val + (j 0).val → X j = G i) :
    (cfg1.win 4).cut (grid1.coords t) X = ((cfg1.win 4).blk t).view.read (Elt Ideal) G := by
  obtain ⟨-, -, -, -, -, -, -, -, e0, e1⟩ := block_index t
  funext j
  show X (win1_4.xinj (grid1.coords t) j) = G (((cfg1.win 4).blk t).view.emb j)
  refine h _ _ ?_
  show win1_4.index t (0 : Fin 2) * 5000 + 1 * (j 0).val = 5000 * t.val + (j 0).val
  omega

/-- What point `t` writes back is block `t` of the message column of the arrays the region was entered with. -/
theorem flushed_eq (c : Dev nD) (t : Fin cfg1.N) :
    (dat1 (F := Ideal) V c).flushed 4 t = ((cfg1.win 4).blk t).view.read (Elt Ideal)
      (Cert.Forms.edgeMsg32 (F := Ideal) (V c main_arg3) (V c main_v13) (V c main_v17) (V c main_v18)) := by
  show (cfg1.win 4).cut (grid1.coords t) ((dat1 (F := Ideal) V c).after 4 t) = _
  rw [after1_4]
  unfold out1_4
  rw [View.canon_unit_zero zero_offsets]
  simp only [View.ld_unit_zero (S := S5000x8) zero_offsets, View.ld_unit_zero (S := S5000x32) zero_offsets,
    View.ld_unit_zero (S := S8x32) zero_offsets, View.ld_unit_zero (S := S1x32) zero_offsets]
  refine block_of_rows t
    (k1_pay1 (F := Ideal) (iblk1 V c 0 t) (iblk1 V c 2 t) (iblk1 V c 3 t) (iblk1 V c 1 t))
    (Cert.Forms.edgeMsg32 (F := Ideal) (V c main_arg3) (V c main_v13) (V c main_v17) (V c main_v18))
    fun j i hi => ?_
  exact row_eq (iblk1 V c 0 t) (iblk1 V c 1 t) (iblk1 V c 2 t) (iblk1 V c 3 t) (V c main_arg3) (V c main_v13)
    (V c main_v17) (V c main_v18) j i ⟨(j 0).val, (j 0).isLt⟩ ⟨(i 0).val, (i 0).isLt⟩ rfl rfl
    (fun k => attr_block V c t _ _ hi k) (fun f => src_block V c t _ _ hi f) (weight_block V c t) (bias_block V c t)

/-- An index of the output column is in point `t`'s block iff each coordinate is in the block's range on its axis. -/
theorem mem_block (t : Fin cfg1.N) (i : S2000000x1.Idx) :
    i ∈ ((cfg1.win 4).blk t).view.set ↔ ∀ a : Fin 2, win1_4.index t a * S5000x1.size a ≤ (i a).val
      ∧ (i a).val < win1_4.index t a * S5000x1.size a + S5000x1.size a := by
  show i ∈ ((View.whole main_v19).slice (win1_4.rect t)).set ↔ _
  rw [View.set_slice_whole, Rect.mem_set_unit]
  exact Iff.rfl

/-- The 400 blocks tile the 2,000,000 rows: row `r` is in the block of point `r / 5000`. -/
theorem covered (i : S2000000x1.Idx) :
    ∃ t : Fin cfg1.N, (cfg1.win 4).flush t = true ∧ i ∈ ((cfg1.win 4).blk t).view.set := by
  have hi0 : (i 0).val < 2000000 := (i 0).isLt
  have hi1 : (i 1).val < 1 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, -, -, -, e0, e1⟩ := block_index t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 1 ≤ (i 1).val ∧ (i 1).val < win1_4.index t (1 : Fin 2) * 1 + 1
    omega

/-- Whatever the region finds in its four input arrays, its output array ends at their message column. -/
theorem final (c : Dev nD) :
    (dat1 (F := Ideal) V c).arrAt 4 cfg1.N
      = Cert.Forms.edgeMsg32 (F := Ideal) (V c main_arg3) (V c main_v13) (V c main_v17) (V c main_v18) :=
  (dat1 (F := Ideal) V c).arrAt_eq_of_cover 4 _ (fun t _ => flushed_eq V c t) covered

end Cert.EdgeArray32

end
-- ==== Proof.RootPoint.lean ====
/-
  One node's output, read at a row, on both sides, and the law that joins them.

  The combining kernel adds, for row `p` of a block of 5000 nodes,
      ((aggh p + aggi p) + (Σ_f x[p,f]·wh[0,f] + bh)) + (Σ_f x[p,f]·wi[0,f] + bi),
  the reference
      ((aggh n + Σ_f x[n,f]·wh[0,f]) + bh) + ((aggi n + Σ_f x[n,f]·wi[0,f]) + bi).
  These are one sum of six terms in two groupings; addition of extended reals is commutative and associative
  (also at the infinities), so they are equal with no finiteness assumed.
-/
import proofs.«142884_j53798760349842_1_alg».proof.Proof.Forms
import proofs.«142884_j53798760349842_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.RootPoint

open Idealize.ShloMosaic ValueIdx

/-- Six extended reals added in the kernel's grouping and in the reference's. -/
theorem regroup (a b s c s' c' : EReal) : ((a + b) + (s + c)) + (s' + c') = ((a + s) + c) + ((b + s') + c') := by
  ac_rfl

section Kernel
open Cert.KernelIdeal Cert.KernelIdeal.Gen

/-- The sum over the 32 lanes of a [5000, 32] block, viewed as a column, read at row `p`: the row's sum. -/
theorem laneSum_apply (w : FVec Ideal S5000x32 .f32) (hφ : FKind.Formats .f32)
    (hacc : (0x00000000#32 : BitVec 32) = 0x00000000#32) (p : Fin 5000) :
    shapeCast S5000x1 (multiReduction (F := Ideal) .add [1] S5000 w 0x00000000#32 reduces_S5000x32_S5000 hφ hacc)
        shapeCasts_S5000_S5000x1 (ix2 p (0 : Fin 1))
      = ∑ f : Fin 32, w (ix2 p f) := by
  refine (shapeCast_apply _ shapeCasts_S5000_S5000x1 (ix2 p (0 : Fin 1)) (ix1 p) ?_).trans ?_
  · rw [Shape.rowMajor_val_one, Shape.rowMajor_val_two]
    show p.val = p.val * 1 + 0
    omega
  refine (Ideal.multiReduction_add_single w 0x00000000#32 reduces_S5000x32_S5000 hφ hacc (ix1 p)).trans ?_
  refine Finset.sum_congr rfl fun f _ => congrArg w (funext fun a => Fin.ext ?_)
  match a with
  | ⟨0, _⟩ => rfl
  | ⟨1, _⟩ => rfl

/-- The one row of a [1, 32] array spread over 5000 rows reads, at `(p, f)`, that row at `f`. -/
theorem rowSpread_apply (v : FVec Ideal S1x32 .f32) (p : Fin 5000) (f : Fin 32) :
    broadcastTo S5000x32 v broadcasts_S1x32_S5000x32 (ix2 p f) = v (ix2 (0 : Fin 1) f) :=
  broadcastTo_1b_ab_apply v broadcasts_S1x32_S5000x32 p f

/-- The one entry of a [1, 1] array spread down a column of 5000 reads that entry at every row. -/
theorem entrySpread_apply (v : FVec Ideal S1x1 .f32) (p : Fin 5000) :
    broadcastTo S5000x1 v broadcasts_S1x1_S5000x1 (ix2 p (0 : Fin 1)) = v (ix2 (0 : Fin 1) (0 : Fin 1)) :=
  broadcastTo_1b_ab_apply v broadcasts_S1x1_S5000x1 p (0 : Fin 1)

/-- The block payload at row `p`. -/
theorem pay_apply (v0 : Vec Ideal S5000x32 .f32) (v1 : Vec Ideal S1x32 .f32) (v6 : Vec Ideal S1x1 .f32)
    (v10 : Vec Ideal S1x32 .f32) (v15 : Vec Ideal S1x1 .f32) (v19 v21 : Vec Ideal S5000x1 .f32) (p : Fin 5000) :
    k2_pay1 (F := Ideal) v0 v1 v6 v10 v15 v19 v21 (ix2 p (0 : Fin 1))
      = ((v19 (ix2 p (0 : Fin 1)) + v21 (ix2 p (0 : Fin 1)))
          + ((∑ f : Fin 32, v0 (ix2 p f) * v1 (ix2 (0 : Fin 1) f)) + v6 (ix2 (0 : Fin 1) (0 : Fin 1))))
        + ((∑ f : Fin 32, v0 (ix2 p f) * v10 (ix2 (0 : Fin 1) f)) + v15 (ix2 (0 : Fin 1) (0 : Fin 1))) := by
  unfold k2_pay1
  simp only [addf_apply, shapeCast_self]
  rw [entrySpread_apply, entrySpread_apply]
  rw [laneSum_apply, laneSum_apply]
  simp only [mulf_apply, rowSpread_apply]

end Kernel

section Reference
open Cert.ReferenceIdeal Cert.ReferenceIdeal.Gen

/-! The operand indices of the root product `[500000, 32] · [32, 1]` at output index `i` and contraction index `q`,
    axis by axis: the left operand is read at `(i 0, q)`, the right at `(q, i 1)`. -/

theorem rootDot_lhs_0 (i : S500000x1.Idx) (q : dot_S500000x32_S32x1_S500000x1_1_0_0_1_n_n.contr.Idx) :
    (dot_S500000x32_S32x1_S500000x1_1_0_0_1_n_n.lhsIdx i q 0).val = (i 0).val := by
  unfold DotDims.lhsIdx
  rw [dif_neg (show ¬(0 : Fin S500000x32.rank) ∈ dot_S500000x32_S32x1_S500000x1_1_0_0_1_n_n.lhsBatch by decide), dif_pos (show (0 : Fin S500000x32.rank) ∈ dot_S500000x32_S32x1_S500000x1_1_0_0_1_n_n.lhsNonContracting by decide)]
  rfl

theorem rootDot_lhs_1 (i : S500000x1.Idx) (q : dot_S500000x32_S32x1_S500000x1_1_0_0_1_n_n.contr.Idx) :
    (dot_S500000x32_S32x1_S500000x1_1_0_0_1_n_n.lhsIdx i q 1).val = (q ⟨0, by decide⟩).val :=
  dot_S500000x32_S32x1_S500000x1_1_0_0_1_n_n.lhsIdx_val_of_single rfl i q

theorem rootDot_rhs_0 (i : S500000x1.Idx) (q : dot_S500000x32_S32x1_S500000x1_1_0_0_1_n_n.contr.Idx) :
    (dot_S500000x32_S32x1_S500000x1_1_0_0_1_n_n.rhsIdx i q 0).val = (q ⟨0, by decide⟩).val :=
  dot_S500000x32_S32x1_S500000x1_1_0_0_1_n_n.rhsIdx_val_of_single rfl i q

theorem rootDot_rhs_1 (i : S500000x1.Idx) (q : dot_S500000x32_S32x1_S500000x1_1_0_0_1_n_n.contr.Idx) :
    (dot_S500000x32_S32x1_S500000x1_1_0_0_1_n_n.rhsIdx i q 1).val = (i 1).val := by
  unfold DotDims.rhsIdx
  rw [dif_neg (show ¬(1 : Fin S32x1.rank) ∈ dot_S500000x32_S32x1_S500000x1_1_0_0_1_n_n.rhsBatch by decide), dif_pos (show (1 : Fin S32x1.rank) ∈ dot_S500000x32_S32x1_S500000x1_1_0_0_1_n_n.rhsNonContracting by decide)]
  rfl

/-- The root term at node `n`: row `n` of `x` against the one row of `w` (the product's right operand is `w` transposed,
    so its entry `(f, 0)` is `w` at `(0, f)`). -/
theorem rootDot_apply (x : FVec Ideal S500000x32 .f32) (w : FVec Ideal S1x32 .f32) (n : Fin 500000) :
    Host.dotGeneral (F := Ideal) dot_S500000x32_S32x1_S500000x1_1_0_0_1_n_n none x (transpose S32x1 [1, 0] w transposes_S1x32_S32x1_1_0) (ix2 n (0 : Fin 1))
      = ∑ f : Fin 32, x (ix2 n f) * w (ix2 (0 : Fin 1) f) := by
  have ht : ∀ f : Fin 32, transpose S32x1 [1, 0] w transposes_S1x32_S32x1_1_0 (ix2 f (0 : Fin 1)) = w (ix2 (0 : Fin 1) f) :=
    fun f => transpose_ix2_apply w transposes_S1x32_S32x1_1_0 f (0 : Fin 1)
  generalize transpose S32x1 [1, 0] w transposes_S1x32_S32x1_1_0 = y at ht ⊢
  simp only [Host.dotGeneral]
  rw [Ideal.dotGeneral_apply, ← Equiv.sum_comp (ValueIdx.contrEquiv1 dot_S500000x32_S32x1_S500000x1_1_0_0_1_n_n 32 rfl rfl).symm]
  refine Finset.sum_congr rfl fun k _ => ?_
  have hk := ValueIdx.contrEquiv1_symm_val dot_S500000x32_S32x1_S500000x1_1_0_0_1_n_n 32 rfl rfl k
  have el : dot_S500000x32_S32x1_S500000x1_1_0_0_1_n_n.lhsIdx (ix2 n (0 : Fin 1)) ((ValueIdx.contrEquiv1 dot_S500000x32_S32x1_S500000x1_1_0_0_1_n_n 32 rfl rfl).symm k) = ix2 n k := funext fun a => Fin.ext (by
    match a with
    | ⟨0, _⟩ => exact rootDot_lhs_0 _ _
    | ⟨1, _⟩ => exact (rootDot_lhs_1 _ _).trans hk)
  have er : dot_S500000x32_S32x1_S500000x1_1_0_0_1_n_n.rhsIdx (ix2 n (0 : Fin 1)) ((ValueIdx.contrEquiv1 dot_S500000x32_S32x1_S500000x1_1_0_0_1_n_n 32 rfl rfl).symm k) = ix2 k (0 : Fin 1) := funext fun a => Fin.ext (by
    match a with
    | ⟨0, _⟩ => exact (rootDot_rhs_0 _ _).trans hk
    | ⟨1, _⟩ => exact rootDot_rhs_1 _ _)
  rw [el, er, ht]

/-- The one entry of a [1, 1] bias spread down a column of 500000 nodes reads that entry at every node. -/
theorem biasSpread_apply (b : FVec Ideal S1x1 .f32) (n : Fin 500000) :
    broadcastInDim S500000x1 ![0, 1] bcast_S1x1_S500000x1_0_1 b (ix2 n (0 : Fin 1)) = b (ix2 (0 : Fin 1) (0 : Fin 1)) :=
  broadcastInDim_apply _ bcast_S1x1_S500000x1_0_1 b (ix2 n (0 : Fin 1)) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-- The reference's output column at node `n`. -/
theorem form_apply (x : FVec Ideal S500000x32 .f32) (aggh aggi : FVec Ideal S500000x1 .f32)
    (wh wi : FVec Ideal S1x32 .f32) (bh bi : FVec Ideal S1x1 .f32) (n : Fin 500000) :
    Cert.Forms.rootSum (F := Ideal) x aggh aggi wh wi bh bi (ix2 n (0 : Fin 1))
      = ((aggh (ix2 n (0 : Fin 1)) + ∑ f : Fin 32, x (ix2 n f) * wh (ix2 (0 : Fin 1) f)) + bh (ix2 (0 : Fin 1) (0 : Fin 1)))
        + ((aggi (ix2 n (0 : Fin 1)) + ∑ f : Fin 32, x (ix2 n f) * wi (ix2 (0 : Fin 1) f)) + bi (ix2 (0 : Fin 1) (0 : Fin 1))) := by
  unfold Cert.Forms.rootSum
  simp only [addf_apply]
  rw [rootDot_apply, rootDot_apply, biasSpread_apply, biasSpread_apply]

end Reference

end Cert.RootPoint

end
-- ==== Proof.RootArray.lean ====
/-
  The combining kernel's output array is the reference's output column of the arrays it was launched on.

  Grid point `t` of 100 stages rows `5000·t … 5000·t + 4999` of the node features and of the two aggregates, the
  two whole 1×32 root weights and the two 1×1 biases, and writes back the same rows of the output column; the 100
  blocks tile the 500,000 rows.
-/
import proofs.«142884_j53798760349842_1_alg».proof.Proof.RootPoint
import proofs.«142884_j53798760349842_1_alg».proof.Proof.Gen.KernelIdeal.Frame

set_option maxRecDepth 16384

noncomputable section

namespace Cert.RootArray

open Idealize.ShloMosaic Idealize.ShloMosaic.TcCoe ValueIdx
open Idealize.SL.Sem
open Cert.KernelIdeal Cert.KernelIdeal.Gen

/-- The zero offsets of a whole-block access, however spelt. -/
theorem zeroOffsets : (![0, 0] : Fin 2 → Nat) = fun _ => 0 := funext fun a => by fin_cases a <;> rfl

/-- The windows' index maps at each of the 100 grid points: the row-blocked windows (features, the two aggregates,
    the output column) sit at block row `t`, column block 0; the weights and biases are staged whole. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- One row: if a block of 5000 rows holds rows of the arrays (row `p` of the block is row `n` of the array), and the
    staged weights and biases are the arrays', the block's payload at row `p` is the reference's column at row `n`. -/
theorem row_eq (x : FVec Ideal S500000x32 .f32) (aggh aggi : FVec Ideal S500000x1 .f32) (wh wi : FVec Ideal S1x32 .f32)
    (bh bi : FVec Ideal S1x1 .f32)
    (x0 : Vec Ideal S5000x32 .f32) (x1 x2 : Vec Ideal S5000x1 .f32) (x3 x4 : Vec Ideal S1x32 .f32)
    (x5 x6 : Vec Ideal S1x1 .f32) (p : Fin 5000) (n : Fin 500000)
    (h0 : ∀ f : Fin 32, x0 (ix2 p f) = x (ix2 n f))
    (h1 : x1 (ix2 p (0 : Fin 1)) = aggh (ix2 n (0 : Fin 1)))
    (h2 : x2 (ix2 p (0 : Fin 1)) = aggi (ix2 n (0 : Fin 1)))
    (h3 : ∀ f : Fin 32, x3 (ix2 (0 : Fin 1) f) = wh (ix2 (0 : Fin 1) f))
    (h4 : ∀ f : Fin 32, x4 (ix2 (0 : Fin 1) f) = wi (ix2 (0 : Fin 1) f))
    (h5 : x5 (ix2 (0 : Fin 1) (0 : Fin 1)) = bh (ix2 (0 : Fin 1) (0 : Fin 1)))
    (h6 : x6 (ix2 (0 : Fin 1) (0 : Fin 1)) = bi (ix2 (0 : Fin 1) (0 : Fin 1))) :
    k2_pay1 (F := Ideal) x0 x3 x5 x4 x6 x1 x2 (ix2 p (0 : Fin 1))
      = Cert.Forms.rootSum (F := Ideal) x aggh aggi wh wi bh bi (ix2 n (0 : Fin 1)) := by
  rw [Cert.RootPoint.pay_apply, Cert.RootPoint.form_apply, h1, h2, h5, h6]
  simp only [h0, h3, h4]
  exact Cert.RootPoint.regroup _ _ _ _ _ _

variable (V : (c : Dev nD) → (b : Ref sig .tc) → Buf (Elt Ideal) ((c : Thread nD τ).loc b))

/-- The feature window's block at point `t` is rows `5000·t … 5000·t + 4999` of the node features. -/
theorem featuresBlock (c : Dev nD) (t : Fin cfg2.N) (y : S5000x32.Idx) (k : S500000x32.Idx)
    (hk0 : (k 0).val = t.val * 5000 + (y 0).val) (hk1 : (k 1).val = (y 1).val) :
    (iblk2 (F := Ideal) V c 0 t : Vec Ideal S5000x32 .f32) y = (V c main_arg0 : S500000x32.Idx → Elt Ideal .f32) k := by
  obtain ⟨e0, e1, -⟩ := blockIndex t
  show V c main_arg0 (((cfg2.win 0).blk t).view.emb y) = V c main_arg0 k
  congr 1
  funext a; apply Fin.ext
  match a with
  | ⟨0, _⟩ => show win2_0.index t (0 : Fin 2) * 5000 + 1 * (y 0).val = (k 0).val; omega
  | ⟨1, _⟩ => show win2_0.index t (1 : Fin 2) * 32 + 1 * (y 1).val = (k 1).val; omega

/-- The first aggregate's block at point `t` is the same rows of its column. -/
theorem aggBlock1 (c : Dev nD) (t : Fin cfg2.N) (y : S5000x1.Idx) (k : S500000x1.Idx)
    (hk0 : (k 0).val = t.val * 5000 + (y 0).val) (hk1 : (k 1).val = (y 1).val) :
    (iblk2 (F := Ideal) V c 1 t : Vec Ideal S5000x1 .f32) y = (V c main_v22 : S500000x1.Idx → Elt Ideal .f32) k := by
  obtain ⟨-, -, e0, e1, -⟩ := blockIndex t
  show V c main_v22 (((cfg2.win 1).blk t).view.emb y) = V c main_v22 k
  congr 1
  funext a; apply Fin.ext
  match a with
  | ⟨0, _⟩ => show win2_1.index t (0 : Fin 2) * 5000 + 1 * (y 0).val = (k 0).val; omega
  | ⟨1, _⟩ => show win2_1.index t (1 : Fin 2) * 1 + 1 * (y 1).val = (k 1).val; omega

/-- The second aggregate's block at point `t` is the same rows of its column. -/
theorem aggBlock2 (c : Dev nD) (t : Fin cfg2.N) (y : S5000x1.Idx) (k : S500000x1.Idx)
    (hk0 : (k 0).val = t.val * 5000 + (y 0).val) (hk1 : (k 1).val = (y 1).val) :
    (iblk2 (F := Ideal) V c 2 t : Vec Ideal S5000x1 .f32) y = (V c main_v25 : S500000x1.Idx → Elt Ideal .f32) k := by
  obtain ⟨-, -, -, -, e0, e1, -⟩ := blockIndex t
  show V c main_v25 (((cfg2.win 2).blk t).view.emb y) = V c main_v25 k
  congr 1
  funext a; apply Fin.ext
  match a with
  | ⟨0, _⟩ => show win2_2.index t (0 : Fin 2) * 5000 + 1 * (y 0).val = (k 0).val; omega
  | ⟨1, _⟩ => show win2_2.index t (1 : Fin 2) * 1 + 1 * (y 1).val = (k 1).val; omega

/-- The first root weight is staged whole at every point. -/
theorem weightBlock1 (c : Dev nD) (t : Fin cfg2.N) (y : S1x32.Idx) :
    (iblk2 (F := Ideal) V c 3 t : Vec Ideal S1x32 .f32) y = (V c main_arg8 : S1x32.Idx → Elt Ideal .f32) y := by
  obtain ⟨-, -, -, -, -, -, e0, e1, -⟩ := blockIndex t
  show V c main_arg8 (((cfg2.win 3).blk t).view.emb y) = V c main_arg8 y
  congr 1
  funext a; apply Fin.ext
  match a with
  | ⟨0, _⟩ => show win2_3.index t (0 : Fin 2) * 1 + 1 * (y 0).val = (y 0).val; omega
  | ⟨1, _⟩ => show win2_3.index t (1 : Fin 2) * 32 + 1 * (y 1).val = (y 1).val; omega

/-- The second root weight is staged whole at every point. -/
theorem weightBlock2 (c : Dev nD) (t : Fin cfg2.N) (y : S1x32.Idx) :
    (iblk2 (F := Ideal) V c 4 t : Vec Ideal S1x32 .f32) y = (V c main_arg10 : S1x32.Idx → Elt Ideal .f32) y := by
  obtain ⟨-, -, -, -, -, -, -, -, e0, e1, -⟩ := blockIndex t
  show V c main_arg10 (((cfg2.win 4).blk t).view.emb y) = V c main_arg10 y
  congr 1
  funext a; apply Fin.ext
  match a with
  | ⟨0, _⟩ => show win2_4.index t (0 : Fin 2) * 1 + 1 * (y 0).val = (y 0).val; omega
  | ⟨1, _⟩ => show win2_4.index t (1 : Fin 2) * 32 + 1 * (y 1).val = (y 1).val; omega

/-- The first bias is staged whole at every point. -/
theorem biasBlock1 (c : Dev nD) (t : Fin cfg2.N) (y : S1x1.Idx) :
    (iblk2 (F := Ideal) V c 5 t : Vec Ideal S1x1 .f32) y = (V c main_v26 : S1x1.Idx → Elt Ideal .f32) y := by
  obtain ⟨-, -, -, -, -, -, -, -, -, -, e0, e1, -⟩ := blockIndex t
  show V c main_v26 (((cfg2.win 5).blk t).view.emb y) = V c main_v26 y
  congr 1
  funext a; apply Fin.ext
  match a with
  | ⟨0, _⟩ => show win2_5.index t (0 : Fin 2) * 1 + 1 * (y 0).val = (y 0).val; omega
  | ⟨1, _⟩ => show win2_5.index t (1 : Fin 2) * 1 + 1 * (y 1).val = (y 1).val; omega

/-- The second bias is staged whole at every point. -/
theorem biasBlock2 (c : Dev nD) (t : Fin cfg2.N) (y : S1x1.Idx) :
    (iblk2 (F := Ideal) V c 6 t : Vec Ideal S1x1 .f32) y = (V c main_v27 : S1x1.Idx → Elt Ideal .f32) y := by
  obtain ⟨-, -, -, -, -, -, -, -, -, -, -, -, e0, e1, -⟩ := blockIndex t
  show V c main_v27 (((cfg2.win 6).blk t).view.emb y) = V c main_v27 y
  congr 1
  funext a; apply Fin.ext
  match a with
  | ⟨0, _⟩ => show win2_6.index t (0 : Fin 2) * 1 + 1 * (y 0).val = (y 0).val; omega
  | ⟨1, _⟩ => show win2_6.index t (1 : Fin 2) * 1 + 1 * (y 1).val = (y 1).val; omega

/-- What point `t` writes back is block `t` of the reference's output column of the arrays the region was entered with. -/
theorem flushedBlock (c : Dev nD) (t : Fin cfg2.N) :
    (dat2 (F := Ideal) V c).flushed 7 t = ((cfg2.win 7).blk t).view.read (Elt Ideal)
      (Cert.Forms.rootSum (F := Ideal) (V c main_arg0) (V c main_v22) (V c main_v25) (V c main_arg8) (V c main_arg10)
          (V c main_v26) (V c main_v27)) := by
  show (cfg2.win 7).cut (grid2.coords t) ((dat2 V c).after 7 t) = _
  rw [after2_7]
  unfold out2_7
  rw [View.canon_unit_zero zeroOffsets]
  simp only [View.ld_unit_zero (S := S5000x32) zeroOffsets, View.ld_unit_zero (S := S5000x1) zeroOffsets,
    View.ld_unit_zero (S := S1x32) zeroOffsets, View.ld_unit_zero (S := S1x1) zeroOffsets]
  obtain ⟨-, -, -, -, -, -, -, -, -, -, -, -, -, -, e0, e1⟩ := blockIndex t
  funext j
  obtain ⟨p, q, rfl⟩ : ∃ (p : Fin 5000) (q : Fin 1), j = ix2 p q := ⟨j 0, j 1, eq_ix2 j⟩
  obtain rfl : q = 0 := Subsingleton.elim _ _
  have ht : t.val < 100 := t.isLt
  have hp : p.val < 5000 := p.isLt
  show k2_pay1 (F := Ideal) (iblk2 V c 0 t) (iblk2 V c 3 t) (iblk2 V c 5 t) (iblk2 V c 4 t) (iblk2 V c 6 t)
      (iblk2 V c 1 t) (iblk2 V c 2 t) (ix2 p (0 : Fin 1))
    = Cert.Forms.rootSum (F := Ideal) (V c main_arg0) (V c main_v22) (V c main_v25) (V c main_arg8) (V c main_arg10)
        (V c main_v26) (V c main_v27) (((cfg2.win 7).blk t).view.emb (ix2 p (0 : Fin 1)))
  have hrow : ((cfg2.win 7).blk t).view.emb (ix2 p (0 : Fin 1))
      = (ix2 (⟨t.val * 5000 + p.val, by omega⟩ : Fin 500000) (0 : Fin 1) : S500000x1.Idx) := by
    funext a; apply Fin.ext
    match a with
    | ⟨0, _⟩ => show win2_7.index t (0 : Fin 2) * 5000 + 1 * p.val = t.val * 5000 + p.val; omega
    | ⟨1, _⟩ => show win2_7.index t (1 : Fin 2) * 1 + 1 * 0 = 0; omega
  rw [hrow]
  refine row_eq _ _ _ _ _ _ _ _ _ _ _ _ _ _ p _ (fun f => ?_) ?_ ?_ (fun f => ?_) (fun f => ?_) ?_ ?_
  · exact featuresBlock V c t _ _ rfl rfl
  · exact aggBlock1 V c t _ _ rfl rfl
  · exact aggBlock2 V c t _ _ rfl rfl
  · exact weightBlock1 V c t _
  · exact weightBlock2 V c t _
  · exact biasBlock1 V c t _
  · exact biasBlock2 V c t _

/-- A row of the output column lies in point `t`'s block iff each coordinate is in the block's range on its axis. -/
theorem mem_block (t : Fin cfg2.N) (i : S500000x1.Idx) :
    i ∈ ((cfg2.win 7).blk t).view.set
      ↔ ∀ a : Fin 2, win2_7.index t a * S5000x1.size a ≤ (i a).val
          ∧ (i a).val < win2_7.index t a * S5000x1.size a + S5000x1.size a := by
  show i ∈ ((View.whole main_v28).slice (win2_7.rect t)).set ↔ _
  rw [View.set_slice_whole, Rect.mem_set_unit]
  exact Iff.rfl

/-- The 100 blocks of 5000 rows tile the 500,000 rows: row `r` is in the block of point `r / 5000`, which writes back. -/
theorem covered (i : S500000x1.Idx) :
    ∃ t : Fin cfg2.N, (cfg2.win 7).flush t = true ∧ i ∈ ((cfg2.win 7).blk t).view.set := by
  have hi0 : (i 0).val < 500000 := (i 0).isLt
  have hi1 : (i 1).val < 1 := (i 1).isLt
  have hN : cfg2.N = 100 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, -, -, e0, e1⟩ := blockIndex t
  refine ⟨t, flush2_7 t, ?_⟩
  rw [mem_block]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 1 ≤ (i 1).val ∧ (i 1).val < win2_7.index t (1 : Fin 2) * 1 + 1
    omega

/-- Whatever the region finds in its seven input arrays, its output array ends at their output column. -/
theorem final (c : Dev nD) :
    (dat2 (F := Ideal) V c).arrAt 7 cfg2.N
      = Cert.Forms.rootSum (F := Ideal) (V c main_arg0) (V c main_v22) (V c main_v25) (V c main_arg8) (V c main_arg10)
          (V c main_v26) (V c main_v27) :=
  (dat2 (F := Ideal) V c).arrAt_eq_of_cover 7 _ (fun t _ => flushedBlock V c t) covered

end Cert.RootArray

end
-- ==== Proof.Chain.lean ====
/-
  The result buffer at the end of @main is the layer's output column of the launch arguments.

  Read backwards: the combining kernel's output array is `rootSum` of its seven input arrays; two of those are the
  scatter-adds of the two message kernels' output columns; each of those is the message column of that kernel's
  four input arrays; and every input array is a launch argument, a gather of one, a transpose of one, or a length-n
  vector laid out as a 1×n row.
-/
import proofs.«142884_j53798760349842_1_alg».proof.Proof.Boundary
import proofs.«142884_j53798760349842_1_alg».proof.Proof.EdgeArray16
import proofs.«142884_j53798760349842_1_alg».proof.Proof.EdgeArray32
import proofs.«142884_j53798760349842_1_alg».proof.Proof.RootArray

set_option maxRecDepth 16384

noncomputable section

namespace Cert.Chain

open Idealize.ShloMosaic Idealize.ShloMosaic.TcCoe Idealize.ShloMosaic.StableHlo
open Idealize.SL.Sem
open Cert.KernelIdeal Cert.KernelIdeal.Gen Cert.Boundary

variable (m : (ℓ : Loc nD τ sig) → Buf (Elt Ideal) ℓ) (ρ : Dev nD → PrngReg)

/-- After the first message kernel its output column holds the messages of the house→individual edges. -/
theorem msg16 (c : Dev nD) :
    W2 m ρ c (Proc.devRef .tc main_v16)
      = Cert.Forms.edgeMsg16 (F := Ideal) (m ((c : Thread nD τ).loc main_arg2))
          (Host.gather gather_S200000x16_S2000000x1_S2000000x16_1_0_n_n_0_1_116 (m ((c : Thread nD τ).loc main_arg1))
            (Cert.Forms.wrapped (F := Ideal) 200000#32 (m ((c : Thread nD τ).loc main_arg12))))
          (transpose S8x16 [1, 0] (m ((c : Thread nD τ).loc main_arg4)) transposes_S16x8_S8x16_1_0)
          (shapeCast S1x16 (m ((c : Thread nD τ).loc main_arg5)) shapeCasts_S16_S1x16) := by
  refine (W2_arr m ρ c 4).trans ?_
  rw [Cert.EdgeArray16.final (V1 m ρ) c, entry0_attr, entry0_src, entry0_weight, entry0_bias]

/-- After the second message kernel its output column holds the messages of the individual→individual edges. -/
theorem msg32 (c : Dev nD) :
    W4 m ρ c (Proc.devRef .tc main_v19)
      = Cert.Forms.edgeMsg32 (F := Ideal) (m ((c : Thread nD τ).loc main_arg3))
          (Host.gather gather_S500000x32_S2000000x1_S2000000x32_1_0_n_n_0_1_132 (m ((c : Thread nD τ).loc main_arg0))
            (Cert.Forms.wrapped (F := Ideal) 500000#32 (m ((c : Thread nD τ).loc main_arg14))))
          (transpose S8x32 [1, 0] (m ((c : Thread nD τ).loc main_arg6)) transposes_S32x8_S8x32_1_0)
          (shapeCast S1x32 (m ((c : Thread nD τ).loc main_arg7)) shapeCasts_S32_S1x32) := by
  refine (W4_arr m ρ c 4).trans ?_
  rw [Cert.EdgeArray32.final (V3 m ρ) c, entry1_attr, entry1_src, entry1_weight, entry1_bias]

/-- At the end of @main the result buffer holds the layer's output column of the launch arguments. -/
theorem result (c : Dev nD) :
    W6 m ρ c (Proc.devRef .tc main_v28)
      = Cert.Forms.layer (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 7).trans ?_
  rw [Cert.RootArray.final (V5 m ρ) c, entry2_x, entry2_aggh, entry2_aggi, entry2_wh, entry2_wi, entry2_bh, entry2_bi,
    msg16, msg32]
  have b16 : shapeCast S1x16 (m ((c : Thread nD τ).loc main_arg5)) shapeCasts_S16_S1x16
      = broadcastInDim Cert.ReferenceIdeal.S1x16 ![1] Cert.ReferenceIdeal.Gen.bcast_S16_S1x16_1 (m ((c : Thread nD τ).loc main_arg5)) :=
    Cert.Forms.row_of_vector (n := 16) _ _ _
  have b32 : shapeCast S1x32 (m ((c : Thread nD τ).loc main_arg7)) shapeCasts_S32_S1x32
      = broadcastInDim Cert.ReferenceIdeal.S1x32 ![1] Cert.ReferenceIdeal.Gen.bcast_S32_S1x32_1 (m ((c : Thread nD τ).loc main_arg7)) :=
    Cert.Forms.row_of_vector (n := 32) _ _ _
  have bh : shapeCast S1x1 (m ((c : Thread nD τ).loc main_arg9)) shapeCasts_S1_S1x1
      = broadcastInDim Cert.ReferenceIdeal.S1x1 ![1] Cert.ReferenceIdeal.Gen.bcast_S1_S1x1_1 (m ((c : Thread nD τ).loc main_arg9)) :=
    Cert.Forms.row_of_vector (n := 1) _ _ _
  have bi : shapeCast S1x1 (m ((c : Thread nD τ).loc main_arg11)) shapeCasts_S1_S1x1
      = broadcastInDim Cert.ReferenceIdeal.S1x1 ![1] Cert.ReferenceIdeal.Gen.bcast_S1_S1x1_1 (m ((c : Thread nD τ).loc main_arg11)) :=
    Cert.Forms.row_of_vector (n := 1) _ _ _
  rw [b16, b32, bh, bi]
  rfl

end Cert.Chain

end
-- ==== Proof.lean ====
/-
  An edge-conditioned graph convolution with one output channel, over two relations into the same node type, summed.

  For each relation the message of edge `e` is Σ_f xsrc[src e, f] · (Σ_k ea[e,k]·W[f,k] + b[f]); the messages are
  summed per destination node; the layer's output at node `n` adds to each relation's aggregate the root term
  Σ_f x[n,f]·Wr[0,f] and a bias, and adds the two relations. The kernel computes the two message columns and the final
  combination in three pallas_calls and leaves the row gathers and the scatter-adds to the host; the reference is
  host operations throughout. At `Ideal` both are ONE function of the sixteen arguments, `Cert.Forms.layer`:
  - the reference's run term is `layer` of its launch memory by unfolding (Proof/Forms.lean, Proof/Layer.lean spell the
    reference's own operations);
  - the kernel's result buffer at the end of @main is `layer` of its launch memory (Proof/Chain.lean): each message
    kernel's output array is the reference's message column of its input arrays (Proof/EdgeArray16.lean,
    Proof/EdgeArray32.lean: block by block, the matrix product into a zero accumulator and the lane sum read as plain
    sums, narrowing to bf16 the identity on extended reals), the combining kernel's output array is the reference's
    combination of its input arrays (Proof/RootArray.lean: six terms added in two groupings, equal because addition of
    extended reals is commutative and associative, with no finiteness assumed), and every input array is traced to the
    launch memory through the host operations between the kernels (Proof/Boundary.lean).
  So the precondition is never opened. The frames of the two kernel programs are the generated ones; the reference's
  frame is its generated run with the result dropped; the idealization rewrote nothing, so `preserves` is `True`.
-/
import proofs.«142884_j53798760349842_1_alg».proof.Defs
import proofs.«142884_j53798760349842_1_alg».proof.Proof.Gen.Kernel
import proofs.«142884_j53798760349842_1_alg».proof.Proof.Gen.Kernel.Skeleton
import proofs.«142884_j53798760349842_1_alg».proof.Proof.Gen.Kernel.Launch
import proofs.«142884_j53798760349842_1_alg».proof.Proof.Gen.Kernel.Points
import proofs.«142884_j53798760349842_1_alg».proof.Proof.Gen.Kernel.Frame
import proofs.«142884_j53798760349842_1_alg».proof.Proof.Gen.KernelIdeal
import proofs.«142884_j53798760349842_1_alg».proof.Proof.Gen.KernelIdeal.Skeleton
import proofs.«142884_j53798760349842_1_alg».proof.Proof.Gen.KernelIdeal.Launch
import proofs.«142884_j53798760349842_1_alg».proof.Proof.Gen.KernelIdeal.Points
import proofs.«142884_j53798760349842_1_alg».proof.Proof.Gen.KernelIdeal.Frame
import proofs.«142884_j53798760349842_1_alg».proof.Proof.Gen.ReferenceIdeal
import proofs.«142884_j53798760349842_1_alg».proof.Proof.Gen.ReferenceIdeal.Run
import proofs.«142884_j53798760349842_1_alg».proof.Proof.Gen.ReferenceIdeal.Read
import proofs.«142884_j53798760349842_1_alg».proof.Proof.Gen.Pre_finite_inputs
import Idealize.ShloMosaic.Adequacy
import Idealize.ShloMosaic.Init
import proofs.«142884_j53798760349842_1_alg».proof.Proof.ValueRun
import proofs.«142884_j53798760349842_1_alg».proof.Proof.Chain

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's output column of the (agreeing) launch arguments. -/
theorem algebraic : Cert.algebraic_KernelIdeal_ReferenceIdeal := by
  intro m ρ m' ρ' _ hagree
  refine ⟨fun c => Cert.Forms.layer (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.Chain.result m ρ c), (h c).2⟩)
      (Cert.KernelIdeal.Gen.valueRun (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [h0, h1, h2, h3, h4, h5, h6, h7, h8, h9, h10, h11, h12, h13, h14, h15]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
